-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512x20 : S_.BroadcastsInDim S1024x512x20 (![] : Fin 0 → Fin S1024x512x20.rank)
  reducesTo_S1024x512x20_S_d0_1_2 : S1024x512x20.ReducesTo [0, 1, 2] S_
  bcast_S_S1536x1 : S_.BroadcastsInDim S1536x1 (![] : Fin 0 → Fin S1536x1.rank)
  reducesTo_S1536x1_S_d0_1 : S1536x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x512x20 .f32) (main_arg8 : FVec F S1536x1 .f32) (main_arg9 : FVec F S1 .f32) (main_v33 : IVec S_ 1) : IVec S_ 1 :=
  let main_v34 : FVec F S1024x512x20 .f32 := Host.absf main_arg7
  let main_cst_12 : FVec F S_ .f32 := constant S_ .f32 0x7F800000#32
  let main_v35 : FVec F S1024x512x20 .f32 := broadcastInDim S1024x512x20 ![] bcast_S_S1024x512x20 main_cst_12
  let main_v36 : IVec S1024x512x20 1 := cmpf .olt main_v34 main_v35
  let main_c_13 : IVec S_ 1 := constantI S_ 1 1#1
  let main_v37 : IVec S_ 1 := (fun x v => Host.reduce IntOp.andi x v reducesTo_S1024x512x20_S_d0_1_2 h_S_) main_v36 main_c_13
  let main_v38 : IVec S_ 1 := andi main_v33 main_v37
  let main_v39 : FVec F S1536x1 .f32 := Host.absf main_arg8
  let main_cst_14 : FVec F S_ .f32 := constant S_ .f32 0x7F800000#32
  let main_v40 : FVec F S1536x1 .f32 := broadcastInDim S1536x1 ![] bcast_S_S1536x1 main_cst_14
  let main_v41 : IVec S1536x1 1 := cmpf .olt main_v39 main_v40
  let main_c_15 : IVec S_ 1 := constantI S_ 1 1#1
  let main_v42 : IVec S_ 1 := (fun x v => Host.reduce IntOp.andi x v reducesTo_S1536x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S128x512 .f32) (main_arg1 : FVec F S512x512 .f32) (main_arg2 : FVec F S512 .f32) (main_arg3 : FVec F S512x1024 .f32) (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_v13 main_v16
-- ==== Kernel.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x512 : Shape := ⟨2, ![1, 512]⟩
abbrev S1x1024 : Shape := ⟨2, ![1, 1024]⟩
abbrev S128x1024 : Shape := ⟨2, ![128, 1024]⟩
abbrev S20x1024x512 : Shape := ⟨3, ![20, 1024, 512]⟩
abbrev S20x128x512 : Shape := ⟨3, ![20, 128, 512]⟩
abbrev S1x1024x512 : Shape := ⟨3, ![1, 1024, 512]⟩
abbrev S1x128x512 : Shape := ⟨3, ![1, 128, 512]⟩
abbrev S1024x512 : Shape := ⟨2, ![1024, 512]⟩
abbrev S20x128x128 : Shape := ⟨3, ![20, 128, 128]⟩
abbrev S128x128 : Shape := ⟨2, ![128, 128]⟩
abbrev S128x128x128 : Shape := ⟨3, ![128, 128, 128]⟩
abbrev S1x128x128 : Shape := ⟨3, ![1, 128, 128]⟩
abbrev S128x1x128 : Shape := ⟨3, ![128, 1, 128]⟩
abbrev S128x1536 : Shape := ⟨2, ![128, 1536]⟩
abbrev S128x1 : Shape := ⟨2, ![128, 1]⟩
abbrev S1x1 : Shape := ⟨2, ![1, 1]⟩

abbrev nBuf : Space → Nat
  | .hbm => 23
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S128x1024, .f32⟩
  | .hbm, ⟨14, _⟩ => ⟨S20x1024x512, .f32⟩
  | .hbm, ⟨15, _⟩ => ⟨S20x1024x512, .bf16⟩
  | .hbm, ⟨16, _⟩ => ⟨S20x128x512, .f32⟩
  | .hbm, ⟨17, _⟩ => ⟨S128x512, .f32⟩
  | .hbm, ⟨18, _⟩ => ⟨S128x1536, .f32⟩
  | .hbm, ⟨19, _⟩ => ⟨S128x1, .f32⟩
  | .hbm, ⟨20, _⟩ => ⟨S1x1, .f32⟩
  | .hbm, ⟨21, _⟩ => ⟨S128x1, .f32⟩
  | .hbm, ⟨22, _⟩ => ⟨S128x1, .f32⟩
  | .local _ .vmem, ⟨0, _⟩ => ⟨S128x512, .f32⟩
  | .local _ .vmem, ⟨1, _⟩ => ⟨S512x512, .f32⟩
  | .local _ .vmem, ⟨2, _⟩ => ⟨S1x512, .f32⟩
  | .local _ .vmem, ⟨3, _⟩ => ⟨S512x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S1x1024x512, .bf16⟩
  | .local _ .vmem, ⟨10, _⟩ => ⟨S1x1024x512, .bf16⟩
  | .local _ .vmem, ⟨11, _⟩ => ⟨S1x128x512, .f32⟩
  | .local _ .vmem, ⟨12, _⟩ => ⟨S1x128x512, .f32⟩
  | .local _ .vmem, ⟨13, _⟩ => ⟨S20x128x128, .f32⟩
  | .local _ .vmem, ⟨14, _⟩ => ⟨S20x128x128, .f32⟩
  | .local _ .vmem, ⟨15, _⟩ => ⟨S128x128, .f32⟩
  | .local _ .vmem, ⟨16, _⟩ => ⟨S128x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S20x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S512_S1x512 : S512.ShapeCasts S1x512
  shapeCasts_S1024_S1x1024 : S1024.ShapeCasts S1x1024
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  inb_S128x1024_S128x1024_0_0 : ∀ a, (![0, 0] : Fin 2 → Nat) a + S128x1024.size a ≤ S128x1024.size a
  h_S128x1024 : 0 < S128x1024.numel
  transposes_S1024x512x20_S20x1024x512_2_0_1 : S1024x512x20.Transposes [2, 0, 1] S20x1024x512
  shapeCasts_S128x1024_S128x1024 : S128x1024.ShapeCasts S128x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S20x128x128_S20x128x128_0_0_0 : ∀ a, (![0, 0, 0] : Fin 3 → Nat) a + S20x128x128.size a ≤ S20x128x128.size a
  h_S20x128x128 : 0 < S20x128x128.numel
  shapeCasts_S20x128x128_S20x128x128 : S20x128x128.ShapeCasts S20x128x128
  slices_S20x128x128_o0_0_0_S1x128x128 : S20x128x128.Slices ![0, 0, 0] S1x128x128
  shapeCasts_S1x128x128_S128x128 : S1x128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  slices_S20x128x128_o1_0_0_S1x128x128 : S20x128x128.Slices ![1, 0, 0] S1x128x128
  slices_S20x128x128_o2_0_0_S1x128x128 : S20x128x128.Slices ![2, 0, 0] S1x128x128
  slices_S20x128x128_o3_0_0_S1x128x128 : S20x128x128.Slices ![3, 0, 0] S1x128x128
  slices_S20x128x128_o4_0_0_S1x128x128 : S20x128x128.Slices ![4, 0, 0] S1x128x128
  slices_S20x128x128_o5_0_0_S1x128x128 : S20x128x128.Slices ![5, 0, 0] S1x128x128
  slices_S20x128x128_o6_0_0_S1x128x128 : S20x128x128.Slices ![6, 0, 0] S1x128x128
  slices_S20x128x128_o7_0_0_S1x128x128 : S20x128x128.Slices ![7, 0, 0] S1x128x128
  slices_S20x128x128_o8_0_0_S1x128x128 : S20x128x128.Slices ![8, 0, 0] S1x128x128
  slices_S20x128x128_o9_0_0_S1x128x128 : S20x128x128.Slices ![9, 0, 0] S1x128x128
  slices_S20x128x128_o10_0_0_S1x128x128 : S20x128x128.Slices ![10, 0, 0] S1x128x128
  slices_S20x128x128_o11_0_0_S1x128x128 : S20x128x128.Slices ![11, 0, 0] S1x128x128
  slices_S20x128x128_o12_0_0_S1x128x128 : S20x128x128.Slices ![12, 0, 0] S1x128x128
  slices_S20x128x128_o13_0_0_S1x128x128 : S20x128x128.Slices ![13, 0, 0] S1x128x128
  slices_S20x128x128_o14_0_0_S1x128x128 : S20x128x128.Slices ![14, 0, 0] S1x128x128
  slices_S20x128x128_o15_0_0_S1x128x128 : S20x128x128.Slices ![15, 0, 0] S1x128x128
  slices_S20x128x128_o16_0_0_S1x128x128 : S20x128x128.Slices ![16, 0, 0] S1x128x128
  slices_S20x128x128_o17_0_0_S1x128x128 : S20x128x128.Slices ![17, 0, 0] S1x128x128
  slices_S20x128x128_o18_0_0_S1x128x128 : S20x128x128.Slices ![18, 0, 0] S1x128x128
  slices_S20x128x128_o19_0_0_S1x128x128 : S20x128x128.Slices ![19, 0, 0] S1x128x128
  reduces_S128x128x128_S128x128 : S128x128x128.Reduces [1] S128x128
  inb_S128x128_S128x128_0_0 : ∀ a, (![0, 0] : Fin 2 → Nat) a + S128x128.size a ≤ S128x128.size a
  h_S128x128 : 0 < S128x128.numel
  concatenates_S128x1024_S128x512_S128x1536_d1 : Shape.Concatenates [S128x1024, S128x512] S128x1536 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x512_S512x512_S128x512_1_0_0_1_n_n_wf : DotDims.WF S128x512 S512x512 S128x512 [1] [0] [0] [1] [] []
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  dot_S128x1024_S1024x512_S128x512_1_0_0_1_n_n_wf : DotDims.WF S128x1024 S1024x512 S128x512 [1] [0] [0] [1] [] []
  dot_S128x1536_S1536x1_S128x1_1_0_0_1_n_n_wf : DotDims.WF S128x1536 S1536x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .f32 = 32 ∨ (Rect.block (s := S128x1024) S128x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S20x1024x512.size a
  hwx1_1 : ∀ i : grid1.Coords, EltTy.bits .bf16 = 32 ∨ (Rect.block (s := S20x1024x512) S1x1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S20x128x512.size a
  hwx1_2 : ∀ i : grid1.Coords, EltTy.bits .f32 = 32 ∨ (Rect.block (s := S20x128x512) S1x128x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20x128x128.size a ≤ S20x128x512.size a
  hwx2_0 : ∀ i : grid2.Coords, EltTy.bits .f32 = 32 ∨ (Rect.block (s := S20x128x512) S20x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x512.size a
  hwx2_1 : ∀ i : grid2.Coords, EltTy.bits .f32 = 32 ∨ (Rect.block (s := S128x512) S128x128.size (cc2_transform_1 i) (hinb2_1 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1536_S1536x1_S128x1_1_0_0_1_n_n : DotDims S128x1536 S1536x1 S128x1 where
  lhsContracting := [1]
  rhsContracting := [0]
  lhsNonContracting := [0]
  rhsNonContracting := [1]
  lhsBatch := []
  rhsBatch := []
  wf := dot_S128x1536_S1536x1_S128x1_1_0_0_1_n_n_wf

abbrev win0_0 : Pipeline.Window sig grid0 :=
  Pipeline.Window.ofSpec (Memref.whole main_arg0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S20x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S128x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x512 : Shape := ⟨2, ![1, 512]⟩
abbrev S_ : Shape := ⟨0, ![]⟩
abbrev S128x1024 : Shape := ⟨2, ![128, 1024]⟩
abbrev S1x1024 : Shape := ⟨2, ![1, 1024]⟩
abbrev S1024x10240 : Shape := ⟨2, ![1024, 10240]⟩
abbrev S128x10240 : Shape := ⟨2, ![128, 10240]⟩
abbrev S128x512x20 : Shape := ⟨3, ![128, 512, 20]⟩
abbrev S1x128x512x20 : Shape := ⟨4, ![1, 128, 512, 20]⟩
abbrev S128x1x512x20 : Shape := ⟨4, ![128, 1, 512, 20]⟩
abbrev S128x128x512x20 : Shape := ⟨4, ![128, 128, 512, 20]⟩
abbrev S128x128x512 : Shape := ⟨3, ![128, 128, 512]⟩
abbrev S128x1536 : Shape := ⟨2, ![128, 1536]⟩
abbrev S128x1 : Shape := ⟨2, ![128, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S128x512, .f32⟩
  | .hbm, ⟨11, _⟩ => ⟨S1x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .i1⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .i1⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .i1⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S1024x10240, .f32⟩
  | .hbm, ⟨44, _⟩ => ⟨S128x10240, .f32⟩
  | .hbm, ⟨45, _⟩ => ⟨S128x512x20, .f32⟩
  | .hbm, ⟨46, _⟩ => ⟨S1x128x512x20, .f32⟩
  | .hbm, ⟨47, _⟩ => ⟨S128x1x512x20, .f32⟩
  | .hbm, ⟨48, _⟩ => ⟨S128x128x512x20, .f32⟩
  | .hbm, ⟨49, _⟩ => ⟨S128x128x512x20, .f32⟩
  | .hbm, ⟨50, _⟩ => ⟨S128x128x512x20, .f32⟩
  | .hbm, ⟨51, _⟩ => ⟨S128x128x512x20, .f32⟩
  | .hbm, ⟨52, _⟩ => ⟨S_, .f32⟩
  | .hbm, ⟨53, _⟩ => ⟨S128x128x512, .f32⟩
  | .hbm, ⟨54, _⟩ => ⟨S128x128x512, .f32⟩
  | .hbm, ⟨55, _⟩ => ⟨S128x128x512, .f32⟩
  | .hbm, ⟨56, _⟩ => ⟨S_, .f32⟩
  | .hbm, ⟨57, _⟩ => ⟨S128x512, .f32⟩
  | .hbm, ⟨58, _⟩ => ⟨S_, .f32⟩
  | .hbm, ⟨59, _⟩ => ⟨S128x512, .f32⟩
  | .hbm, ⟨60, _⟩ => ⟨S128x512, .f32⟩
  | .hbm, ⟨61, _⟩ => ⟨S128x1536, .f32⟩
  | .hbm, ⟨62, _⟩ => ⟨S128x1, .f32⟩
  | .hbm, ⟨63, _⟩ => ⟨S1x1, .f32⟩
  | .hbm, ⟨64, _⟩ => ⟨S128x1, .f32⟩
  | .hbm, ⟨65, _⟩ => ⟨S128x1, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  shapeCasts_S1024x512x20_S1024x10240 : S1024x512x20.ShapeCasts S1024x10240
  shapeCasts_S128x10240_S128x512x20 : S128x10240.ShapeCasts S128x512x20
  bcast_S128x512x20_S1x128x512x20_1_2_3 : S128x512x20.BroadcastsInDim S1x128x512x20 (![1, 2, 3] : Fin 3 → Fin S1x128x512x20.rank)
  bcast_S128x512x20_S128x1x512x20_0_2_3 : S128x512x20.BroadcastsInDim S128x1x512x20 (![0, 2, 3] : Fin 3 → Fin S128x1x512x20.rank)
  bcast_S1x128x512x20_S128x128x512x20_0_1_2_3 : S1x128x512x20.BroadcastsInDim S128x128x512x20 (![0, 1, 2, 3] : Fin 4 → Fin S128x128x512x20.rank)
  bcast_S128x1x512x20_S128x128x512x20_0_1_2_3 : S128x1x512x20.BroadcastsInDim S128x128x512x20 (![0, 1, 2, 3] : Fin 4 → Fin S128x128x512x20.rank)
  reducesTo_S128x128x512x20_S128x128x512_d3 : S128x128x512x20.ReducesTo [3] S128x128x512
  h_S_ : 0 < S_.numel
  reducesTo_S128x128x512_S128x512_d0 : S128x128x512.ReducesTo [0] S128x512
  concatenates_S128x1024_S128x512_S128x1536_d1 : Shape.Concatenates [S128x1024, S128x512] S128x1536 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x512_S512x512_S128x512_1_0_0_1_n_n_wf : DotDims.WF S128x512 S512x512 S128x512 [1] [0] [0] [1] [] []
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  dot_S128x1024_S1024x10240_S128x10240_1_0_0_1_n_n_wf : DotDims.WF S128x1024 S1024x10240 S128x10240 [1] [0] [0] [1] [] []
  dot_S128x1536_S1536x1_S128x1_1_0_0_1_n_n_wf : DotDims.WF S128x1536 S1536x1 S128x1 [1] [0] [0] [1] [] []

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x10240_S128x10240_1_0_0_1_n_n : DotDims S128x1024 S1024x10240 S128x10240 where
  lhsContracting := [1]
  rhsContracting := [0]
  lhsNonContracting := [0]
  rhsNonContracting := [1]
  lhsBatch := []
  rhsBatch := []
  wf := dot_S128x1024_S1024x10240_S128x10240_1_0_0_1_n_n_wf
def dot_S128x1536_S1536x1_S128x1_1_0_0_1_n_n : DotDims S128x1536 S1536x1 S128x1 where
  lhsContracting := [1]
  rhsContracting := [0]
  lhsNonContracting := [0]
  rhsNonContracting := [1]
  lhsBatch := []
  rhsBatch := []
  wf := dot_S128x1536_S1536x1_S128x1_1_0_0_1_n_n_wf

class Facts : Prop extends Facts₀ where

variable [Facts]
-- ==== Proof.Spec.lean ====
/-
  The network both programs compute, as plain functions of extended reals over finite index ranges.

  A dense layer followed by the leaky rectifier is  lk (Σₖ x p k · W k h + b h) ; three of them give the hidden
  activations h3 [128, 1024]. The minibatch-discrimination projection is  m k b o = Σⱼ h3 b j · T j o k  (20 kernels of
  512 features), the pairwise L1 distance between samples b and a on feature o is  Σₖ |m k b o − m k a o| , and the
  feature that is appended to h3 is  Σₐ exp (−distance b a o) − 1 . Absolute value is max v (−v), as the ideal float
  operations read it; the rectifier's zero and slope and the final 1 stay the f32 words both programs print.
-/
import Idealize.ShloMosaic.PureOps.Ideal

noncomputable section

namespace Cert.Spec

open Idealize.ShloMosaic

/-- The leaky rectifier on one extended real: v where v ≥ 0, else slope · v. -/
def lk (v : EReal) : EReal :=
  Scalar.select (Ideal.cmp .oge v (Ideal.ofBits .f32 0x00000000#32)) v (Ideal.ofBits .f32 0x3C23D70A#32 * v)

/-- One dense layer followed by the leaky rectifier. -/
def lin {P K H : Nat} (x : Fin P → Fin K → EReal) (W : Fin K → Fin H → EReal) (b : Fin H → EReal) :
    Fin P → Fin H → EReal :=
  fun p h => lk ((∑ k : Fin K, x p k * W k h) + b h)

/-- The three layers. -/
def h3 (x : Fin 128 → Fin 512 → EReal) (W1 : Fin 512 → Fin 512 → EReal) (b1 : Fin 512 → EReal)
    (W2 : Fin 512 → Fin 1024 → EReal) (b2 : Fin 1024 → EReal) (W3 : Fin 1024 → Fin 1024 → EReal) (b3 : Fin 1024 → EReal) :
    Fin 128 → Fin 1024 → EReal :=
  lin (lin (lin x W1 b1) W2 b2) W3 b3

/-- The projection onto kernel k of feature o, for sample b. -/
def mm (h : Fin 128 → Fin 1024 → EReal) (T : Fin 1024 → Fin 512 → Fin 20 → EReal) : Fin 20 → Fin 128 → Fin 512 → EReal :=
  fun k b o => ∑ j : Fin 1024, h b j * T j o k

/-- The L1 distance over the 20 kernels between samples b and a on feature o. -/
def dist (m : Fin 20 → Fin 128 → Fin 512 → EReal) (b a : Fin 128) (o : Fin 512) : EReal :=
  ∑ k : Fin 20, max (m k b o - m k a o) (-(m k b o - m k a o))

/-- The minibatch feature: Σₐ exp (−dist b a o) − 1. -/
def ob (m : Fin 20 → Fin 128 → Fin 512 → EReal) : Fin 128 → Fin 512 → EReal :=
  fun b o => (∑ a : Fin 128, Ideal.exp (-(dist m b a o))) - Ideal.ofBits .f32 0x3F800000#32

end Cert.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.Mlp.lean ====
/-
  The first region's value: the hidden activations of the three dense layers.

  The body computes, from its seven whole-array blocks x [128, 512], W1 [512, 512], b1 [1, 512], W2 [512, 1024],
  b2 [1, 1024], W3 [1024, 1024], b3 [1, 1024], three times  lk (Σₖ a (p, k) · W (k, h) + b (0, h))  with lk the leaky
  rectifier (v where v ≥ 0, else slope · v). At the ideal values the narrowing of a product's operands is the identity,
  a product into the zero accumulator read at (p, h) is the plain sum over the contracted coordinate, and the bias row
  broadcast over the rows reads its one row; so one layer read at (p, h) is the specification's layer of its operands
  read by coordinates, and the lower layers appear under the sums as the specification's lower layers.

  The grid has one point and every window's block is its whole array (each block index is 0 on both axes), so each
  input block is its array, the point writes back the block of ONE function of the output's index, that block covers
  the array, and the output array after the region is that function: the specification's h3 of the region-entry arrays.
-/
import proofs.«164673_j24532853195159_1_alg».proof.Proof.Gen.KernelIdeal.Frame
import proofs.«164673_j24532853195159_1_alg».proof.Proof.Spec
import proofs.«164673_j24532853195159_1_alg».proof.Proof.LibMatmul2
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Mlp

open Cert.KernelIdeal Cert.KernelIdeal.Gen Idealize.ShloMosaic Idealize.ShloMosaic.TcCoe Idealize.SL.Sem Idealize.ShloMosaic.ValueIdx

/-! ## The three contraction records: which operand coordinate is which -/

theorem lhs1_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs1_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs1_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs1_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

theorem lhs2_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem lhs2_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs2_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs2_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

theorem lhs3_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs3_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs3_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs3_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-! ## One dense layer of the body, as a term and at an index -/

/-- The leaky rectifier as the body writes it: compare with the zero word, scale by the slope word, select. -/
def act {s : Shape} (z : FVec Ideal s .f32) : FVec Ideal s .f32 :=
  select (cmpf .oge z (broadcast s (Scalar.ofBits (F := Ideal) .f32 0x00000000#32))) z
    (mulf (broadcast s (Scalar.ofBits (F := Ideal) .f32 0x3C23D70A#32)) z)

/-- A layer's pre-activation as the body writes it: both operands narrowed, the product into the zero accumulator,
    plus the bias row broadcast over the rows. -/
def pre {M K N : Nat} (D : DotDims ⟨2, ![M, K]⟩ ⟨2, ![K, N]⟩ ⟨2, ![M, N]⟩) (ht : FTy.bits .bf16 < FTy.bits .f32)
    (hc : (⟨2, ![1, N]⟩ : Shape).ShapeCasts ⟨2, ![1, N]⟩) (hb : (⟨2, ![1, N]⟩ : Shape).Broadcasts ⟨2, ![M, N]⟩)
    (a : FVec Ideal ⟨2, ![M, K]⟩ .f32) (b : FVec Ideal ⟨2, ![K, N]⟩ .f32) (v : FVec Ideal ⟨2, ![1, N]⟩ .f32) :
    FVec Ideal ⟨2, ![M, N]⟩ .f32 :=
  addf (matmul D none (truncf .bf16 a ht) (truncf .bf16 b ht) (constant (F := Ideal) ⟨2, ![M, N]⟩ .f32 0x00000000#32))
    (broadcastTo ⟨2, ![M, N]⟩ (shapeCast ⟨2, ![1, N]⟩ v hc) hb)

/-- The rectifier at an index is the specification's, on the element. -/
theorem act_apply {s : Shape} (z : FVec Ideal s .f32) (i : s.Idx) : act z i = Cert.Spec.lk (z i) := rfl

/-- The pre-activation at (p, h): the row of the left operand against the column of the right, plus the bias at h.
    Narrowing is the identity on extended reals; the cast to the same shape is the identity; the broadcast row reads row 0. -/
theorem pre_apply {M K N : Nat} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (ht : FTy.bits .bf16 < FTy.bits .f32)
    (hc : (⟨2, ![1, N]⟩ : Shape).ShapeCasts ⟨2, ![1, N]⟩) (hb : (⟨2, ![1, N]⟩ : Shape).Broadcasts ⟨2, ![M, N]⟩)
    (a : FVec Ideal ⟨2, ![M, K]⟩ .f32) (b : FVec Ideal ⟨2, ![K, N]⟩ .f32) (v : FVec Ideal ⟨2, ![1, N]⟩ .f32)
    (p : Fin M) (h : Fin N) :
    pre D ht hc hb a b v (ix2 p h) = (∑ k : Fin K, a (ix2 p k) * b (ix2 k h)) + v (ix2 0 h) := by
  unfold pre
  refine (addf_apply _ _ _).trans ?_
  rw [Cert.LibMatmul2.matmul_zero_apply D hr hs hl0 hl1 hr0 hr1, shapeCast_self, broadcastTo_1b_ab_apply]
  rfl

/-- One whole layer at (p, h) is the specification's layer of the operands read by coordinates. -/
theorem layer_apply {M K N : Nat} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (ht : FTy.bits .bf16 < FTy.bits .f32)
    (hc : (⟨2, ![1, N]⟩ : Shape).ShapeCasts ⟨2, ![1, N]⟩) (hb : (⟨2, ![1, N]⟩ : Shape).Broadcasts ⟨2, ![M, N]⟩)
    (a : FVec Ideal ⟨2, ![M, K]⟩ .f32) (b : FVec Ideal ⟨2, ![K, N]⟩ .f32) (v : FVec Ideal ⟨2, ![1, N]⟩ .f32)
    (p : Fin M) (h : Fin N) :
    act (pre D ht hc hb a b v) (ix2 p h)
      = Cert.Spec.lin (fun p k => a (ix2 p k)) (fun k h => b (ix2 k h)) (fun h => v (ix2 0 h)) p h := by
  rw [act_apply, pre_apply D hr hs hl0 hl1 hr0 hr1]
  rfl

/-! ## The body's payloads -/

/-- Layer 3's pre-activation, as the three layers composed. -/
theorem pay2_eq (x0 : Vec Ideal S128x512 .f32) (x1 : Vec Ideal S512x512 .f32) (x2 : Vec Ideal S1x512 .f32)
    (x3 : Vec Ideal S512x1024 .f32) (x4 : Vec Ideal S1x1024 .f32) (x5 : Vec Ideal S1024x1024 .f32) (x6 : Vec Ideal S1x1024 .f32) :
    k0_pay2 (F := Ideal) x0 x1 x2 x3 x4 x5 x6
      = pre dot_S128x1024_S1024x1024_S128x1024_1_0_0_1_n_n bitsLt_bf16_f32 shapeCasts_S1x1024_S1x1024 broadcasts_S1x1024_S128x1024
          (act (pre dot_S128x512_S512x1024_S128x1024_1_0_0_1_n_n bitsLt_bf16_f32 shapeCasts_S1x1024_S1x1024 broadcasts_S1x1024_S128x1024
            (act (pre dot_S128x512_S512x512_S128x512_1_0_0_1_n_n bitsLt_bf16_f32 shapeCasts_S1x512_S1x512 broadcasts_S1x512_S128x512 x0 x1 x2))
            x3 x4))
          x5 x6 := rfl

/-- The stored value is the rectifier of layer 3's pre-activation. -/
theorem pay1_eq (x0 : Vec Ideal S128x512 .f32) (x1 : Vec Ideal S512x512 .f32) (x2 : Vec Ideal S1x512 .f32)
    (x3 : Vec Ideal S512x1024 .f32) (x4 : Vec Ideal S1x1024 .f32) (x5 : Vec Ideal S1024x1024 .f32) (x6 : Vec Ideal S1x1024 .f32) :
    k0_pay1 (F := Ideal) (k0_pay2 x0 x1 x2 x3 x4 x5 x6) (k0_pay3 x0 x1 x2 x3 x4 x5 x6) = act (k0_pay2 (F := Ideal) x0 x1 x2 x3 x4 x5 x6) := rfl

/-- THE PAYLOAD AT (p, h) is the three-layer network of the loaded blocks read by coordinates. -/
theorem payload_apply (x0 : Vec Ideal S128x512 .f32) (x1 : Vec Ideal S512x512 .f32) (x2 : Vec Ideal S1x512 .f32)
    (x3 : Vec Ideal S512x1024 .f32) (x4 : Vec Ideal S1x1024 .f32) (x5 : Vec Ideal S1024x1024 .f32) (x6 : Vec Ideal S1x1024 .f32)
    (p : Fin 128) (h : Fin 1024) :
    k0_pay1 (F := Ideal) (k0_pay2 x0 x1 x2 x3 x4 x5 x6) (k0_pay3 x0 x1 x2 x3 x4 x5 x6) (ix2 p h)
      = Cert.Spec.h3 (fun p k => x0 (ix2 p k)) (fun k h => x1 (ix2 k h)) (fun h => x2 (ix2 0 h))
          (fun k h => x3 (ix2 k h)) (fun h => x4 (ix2 0 h)) (fun k h => x5 (ix2 k h)) (fun h => x6 (ix2 0 h)) p h := by
  rw [pay1_eq, pay2_eq]
  refine (layer_apply dot_S128x1024_S1024x1024_S128x1024_1_0_0_1_n_n rfl rfl lhs3_0 lhs3_1 rhs3_0 rhs3_1 _ _ _ _ _ _ p h).trans ?_
  have e2 : (fun (p : Fin 128) (k : Fin 1024) =>
      act (pre dot_S128x512_S512x1024_S128x1024_1_0_0_1_n_n bitsLt_bf16_f32 shapeCasts_S1x1024_S1x1024 broadcasts_S1x1024_S128x1024
        (act (pre dot_S128x512_S512x512_S128x512_1_0_0_1_n_n bitsLt_bf16_f32 shapeCasts_S1x512_S1x512 broadcasts_S1x512_S128x512 x0 x1 x2))
        x3 x4) (ix2 p k))
      = Cert.Spec.lin (Cert.Spec.lin (fun p k => x0 (ix2 p k)) (fun k h => x1 (ix2 k h)) (fun h => x2 (ix2 0 h)))
          (fun k h => x3 (ix2 k h)) (fun h => x4 (ix2 0 h)) := by
    funext p k
    refine (layer_apply dot_S128x512_S512x1024_S128x1024_1_0_0_1_n_n rfl rfl lhs2_0 lhs2_1 rhs2_0 rhs2_1 _ _ _ _ _ _ p k).trans ?_
    have e1 : (fun (p : Fin 128) (k : Fin 512) =>
        act (pre dot_S128x512_S512x512_S128x512_1_0_0_1_n_n bitsLt_bf16_f32 shapeCasts_S1x512_S1x512 broadcasts_S1x512_S128x512 x0 x1 x2) (ix2 p k))
        = Cert.Spec.lin (fun p k => x0 (ix2 p k)) (fun k h => x1 (ix2 k h)) (fun h => x2 (ix2 0 h)) := by
      funext p k
      exact layer_apply dot_S128x512_S512x512_S128x512_1_0_0_1_n_n rfl rfl lhs1_0 lhs1_1 rhs1_0 rhs1_1 _ _ _ _ _ _ p k
    rw [e1]
  rw [e2]
  rfl

/-! ## From the one grid point to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid's one point: every window's block index is 0 on both axes. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The hidden activations as a function of the region-entry arrays, over explicit coordinates. -/
def hidden (c : Dev nD) : Fin 128 → Fin 1024 → EReal :=
  Cert.Spec.h3 (fun p k => V c main_arg0 (ix2 p k)) (fun k h => V c main_arg1 (ix2 k h)) (fun h => V c main_v0 (ix2 0 h))
    (fun k h => V c main_arg3 (ix2 k h)) (fun h => V c main_v1 (ix2 0 h))
    (fun k h => V c main_arg5 (ix2 k h)) (fun h => V c main_v2 (ix2 0 h))

/-- The whole output array. -/
def hiddenArr (c : Dev nD) : S128x1024.Idx → EReal := fun i => hidden V c (i 0) (i 1)

/-- Each input window's block at the point is its whole array: the block index is 0 on both axes. -/
theorem blk0 (c : Dev nD) (t : Fin cfg0.N) (y : S128x512.Idx) : iblk0 V c 0 t y = V c main_arg0 y := by
  obtain ⟨e0, e1, -⟩ := idx_facts t
  show V c main_arg0 (((cfg0.win 0).blk t).view.emb y) = V c main_arg0 y
  refine congrArg (V c main_arg0) (funext fun a => Fin.ext ?_)
  match a with
  | ⟨0, _⟩ => show win0_0.index t (0 : Fin 2) * 128 + 1 * (y 0).val = (y 0).val; omega
  | ⟨1, _⟩ => show win0_0.index t (1 : Fin 2) * 512 + 1 * (y 1).val = (y 1).val; omega
theorem blk1 (c : Dev nD) (t : Fin cfg0.N) (y : S512x512.Idx) : iblk0 V c 1 t y = V c main_arg1 y := by
  obtain ⟨-, -, e0, e1, -⟩ := idx_facts t
  show V c main_arg1 (((cfg0.win 1).blk t).view.emb y) = V c main_arg1 y
  refine congrArg (V c main_arg1) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega
theorem blk2 (c : Dev nD) (t : Fin cfg0.N) (y : S1x512.Idx) : iblk0 V c 2 t y = V c main_v0 y := by
  obtain ⟨-, -, -, -, e0, e1, -⟩ := idx_facts t
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) (y : S512x1024.Idx) : iblk0 V c 3 t y = V c main_arg3 y := by
  obtain ⟨-, -, -, -, -, -, e0, e1, -⟩ := idx_facts t
  show V c main_arg3 (((cfg0.win 3).blk t).view.emb y) = V c main_arg3 y
  refine congrArg (V c main_arg3) (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega
theorem blk4 (c : Dev nD) (t : Fin cfg0.N) (y : S1x1024.Idx) : iblk0 V c 4 t y = V c main_v1 y := by
  obtain ⟨-, -, -, -, -, -, -, -, e0, e1, -⟩ := idx_facts t
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega
theorem blk5 (c : Dev nD) (t : Fin cfg0.N) (y : S1024x1024.Idx) : iblk0 V c 5 t y = V c main_arg5 y := by
  obtain ⟨-, -, -, -, -, -, -, -, -, -, e0, e1, -⟩ := idx_facts t
  show V c main_arg5 (((cfg0.win 5).blk t).view.emb y) = V c main_arg5 y
  refine congrArg (V c main_arg5) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega
theorem blk6 (c : Dev nD) (t : Fin cfg0.N) (y : S1x1024.Idx) : iblk0 V c 6 t y = V c main_v2 y := by
  obtain ⟨-, -, -, -, -, -, -, -, -, -, -, -, e0, e1, -⟩ := idx_facts t
  show V c main_v2 (((cfg0.win 6).blk t).view.emb y) = V c main_v2 y
  refine congrArg (V c main_v2) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- The payload at any index of the block, over variables of the literal types. -/
theorem payload_at (x0 : Vec Ideal S128x512 .f32) (x1 : Vec Ideal S512x512 .f32) (x2 : Vec Ideal S1x512 .f32)
    (x3 : Vec Ideal S512x1024 .f32) (x4 : Vec Ideal S1x1024 .f32) (x5 : Vec Ideal S1024x1024 .f32) (x6 : Vec Ideal S1x1024 .f32)
    (j : S128x1024.Idx) :
    k0_pay1 (F := Ideal) (k0_pay2 x0 x1 x2 x3 x4 x5 x6) (k0_pay3 x0 x1 x2 x3 x4 x5 x6) j
      = Cert.Spec.h3 (fun p k => x0 (ix2 p k)) (fun k h => x1 (ix2 k h)) (fun h => x2 (ix2 0 h))
          (fun k h => x3 (ix2 k h)) (fun h => x4 (ix2 0 h)) (fun k h => x5 (ix2 k h)) (fun h => x6 (ix2 0 h)) (j 0) (j 1) := by
  obtain ⟨p, h, rfl⟩ : ∃ (p : Fin 128) (h : Fin 1024), j = ix2 p h := ⟨j 0, j 1, eq_ix2 j⟩
  exact payload_apply x0 x1 x2 x3 x4 x5 x6 p h

/-- WHAT THE ONE POINT WRITES BACK is the block of the hidden activations' array. -/
theorem flushed_eq (c : Dev nD) (t : Fin cfg0.N) :
    (dat0 (F := Ideal) V c).flushed 7 t = ((cfg0.win 7).blk t).view.read (Elt Ideal) (hiddenArr V c) := by
  show (cfg0.win 7).cut (grid0.coords t) ((dat0 (F := Ideal) V c).after 7 t) = _
  rw [after0_7]
  unfold out0_7
  rw [View.canon_unit_zero hz]
  simp only [View.ld_unit_zero (S := S128x512) hz, View.ld_unit_zero (S := S512x512) hz, View.ld_unit_zero (S := S1x512) hz,
    View.ld_unit_zero (S := S512x1024) hz, View.ld_unit_zero (S := S1x1024) hz, View.ld_unit_zero (S := S1024x1024) hz]
  obtain ⟨-, -, -, -, -, -, -, -, -, -, -, -, -, -, e0, e1⟩ := idx_facts t
  funext j
  show k0_pay1 (F := Ideal) (k0_pay2 (iblk0 V c 0 t) (iblk0 V c 1 t) (iblk0 V c 2 t) (iblk0 V c 3 t) (iblk0 V c 4 t) (iblk0 V c 5 t) (iblk0 V c 6 t))
      (k0_pay3 (iblk0 V c 0 t) (iblk0 V c 1 t) (iblk0 V c 2 t) (iblk0 V c 3 t) (iblk0 V c 4 t) (iblk0 V c 5 t) (iblk0 V c 6 t)) j
    = hiddenArr V c (((cfg0.win 7).blk t).view.emb j)
  refine (payload_at (iblk0 V c 0 t) (iblk0 V c 1 t) (iblk0 V c 2 t) (iblk0 V c 3 t) (iblk0 V c 4 t) (iblk0 V c 5 t) (iblk0 V c 6 t) j).trans ?_
  have hj : ((cfg0.win 7).blk t).view.emb j = j := by
    funext a; apply Fin.ext
    match a with
    | ⟨0, _⟩ => show win0_7.index t (0 : Fin 2) * 128 + 1 * (j 0).val = (j 0).val; omega
    | ⟨1, _⟩ => show win0_7.index t (1 : Fin 2) * 1024 + 1 * (j 1).val = (j 1).val; omega
  rw [hj]
  simp only [blk0 V c t, blk1 V c t, blk2 V c t, blk3 V c t, blk4 V c t, blk5 V c t, blk6 V c t]
  rfl

/-- An index of the array is in the point's block iff each coordinate is in the block's range on its axis. -/
theorem mem_blk (t : Fin cfg0.N) (i : S128x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v3).slice (win0_7.rect t)).set ↔ _
  rw [View.set_slice_whole, Rect.mem_set_unit]
  exact Iff.rfl

/-- The one point's block is the whole array. -/
theorem cover (i : S128x1024.Idx) : ∃ t : Fin cfg0.N, (cfg0.win 7).flush t = true ∧ i ∈ ((cfg0.win 7).blk t).view.set := by
  have t : Fin cfg0.N := ⟨0, by decide⟩
  obtain ⟨-, -, -, -, -, -, -, -, -, -, -, -, -, -, e0, e1⟩ := idx_facts t
  have hi0 : (i 0).val < 128 := (i 0).isLt
  have hi1 : (i 1).val < 1024 := (i 1).isLt
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- THE ARRAY after the region is the hidden activations' array. -/
theorem final_arr (c : Dev nD) : (dat0 (F := Ideal) V c).arrAt 7 cfg0.N = hiddenArr V c :=
  (dat0 (F := Ideal) V c).arrAt_eq_of_cover 7 (hiddenArr V c) (fun t _ => flushed_eq V c t) cover

theorem final0 (c : Dev nD) (p : Fin 128) (h : Fin 1024) :
    (dat0 (F := Ideal) V c).arrAt 7 cfg0.N (ix2 p h) =
      Cert.Spec.h3 (fun p k => V c main_arg0 (ix2 p k)) (fun k h => V c main_arg1 (ix2 k h)) (fun h => V c main_v0 (ix2 0 h))
        (fun k h => V c main_arg3 (ix2 k h)) (fun h => V c main_v1 (ix2 0 h))
        (fun k h => V c main_arg5 (ix2 k h)) (fun h => V c main_v2 (ix2 0 h)) p h :=
  congrFun (final_arr V c) (ix2 p h)

end Cert.KernelIdeal.Mlp

end
-- ==== Proof.Pairwise.lean ====
/-
  The third kernel call of the program: the pairwise L1 distance over the 20 projections, exp of its negation, and the
  sum over the other sample, read off the generated frame.

  Grid point t (of 4) loads the block [20, 128, 128] of the input array m : [20, 128, 512] at columns 128 t … 128 t + 127
  and stores the block [128, 128] of the output array [128, 512] at the same columns. On a loaded block x the body adds,
  for k = 0 … 19, the term |x(k,i,o) − x(k,j,o)| onto a zero accumulator at every (i, j, o), takes exp of zero minus the
  total, sums over the second axis j and takes the word of 1.0 off. So the block stored at (i, o) is
  Σⱼ exp (−Σₖ |x(k,i,o) − x(k,j,o)|) − 1, and the four blocks tile the output array, which therefore ends as the
  specification's minibatch feature of m, index by index.

  Three parts: the payload at an index (one step of the unrolled loop, then the twenty of them and the reduction);
  what grid point t writes back, as block t of one function G of the whole input array; the blocks' cover of the array and
  the array after the four points.
-/
import proofs.«164673_j24532853195159_1_alg».proof.Proof.Gen.KernelIdeal.Frame
import proofs.«164673_j24532853195159_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Pairwise

open Cert.KernelIdeal Cert.KernelIdeal.Gen Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

/-! ## One term of the distance, and the twenty of them as a sum -/

/-- The k-th term of the L1 distance between rows i and j of a block, on lane o: |x(k,i,o) − x(k,j,o)|, the
    absolute value read as max v (−v). -/
def term (x : FVec Ideal S20x128x128 .f32) (k : Fin 20) (i j o : Fin 128) : EReal :=
  max (x (ix3 k i o) - x (ix3 k j o)) (-(x (ix3 k i o) - x (ix3 k j o)))

/-- Twenty terms added one after the other onto a start value are the start value plus their sum. -/
theorem sum20 (z : EReal) (f : Fin 20 → EReal) :
    z + f 0 + f 1 + f 2 + f 3 + f 4 + f 5 + f 6 + f 7 + f 8 + f 9 + f 10 + f 11 + f 12 + f 13 + f 14 + f 15 + f 16
      + f 17 + f 18 + f 19 = z + ∑ k : Fin 20, f k := by
  simp only [Fin.sum_univ_succ, Fin.sum_univ_zero, add_zero, add_assoc]
  rfl

/-- The slice offset of a slice of one leading row stays inside the twenty rows. -/
theorem lt_of_slices {k : Nat} (hs : S20x128x128.Slices ![k, 0, 0] S1x128x128) : k < 20 := by
  obtain ⟨_, h⟩ := hs
  have := h 0
  change k + 1 ≤ 20 at this
  omega

/-- ONE STEP of the unrolled loop read at (i, j, o): row k of the block, as a [128,128] matrix A, broadcast once along
    the second axis (A[:,None,:]) and once along the first (A[None,:,:]); the difference's absolute value at
    (i, j, o) is |x(k,i,o) − x(k,j,o)|. -/
theorem step_apply (x : FVec Ideal S20x128x128 .f32) (k : Nat) (hs : S20x128x128.Slices ![k, 0, 0] S1x128x128)
    (h1 : S1x128x128.ShapeCasts S128x128) (h2 : S128x128.ShapeCasts S128x1x128) (h3 : S128x128.ShapeCasts S1x128x128)
    (h4 : S128x1x128.Broadcasts S128x128x128) (h5 : S1x128x128.Broadcasts S128x128x128) (i j o : Fin 128) :
    absf (subf
        (broadcastTo S128x128x128 (shapeCast S128x1x128 (shapeCast S128x128 (extractStridedSlice S1x128x128 ![k, 0, 0] x hs) h1) h2) h4)
        (broadcastTo S128x128x128 (shapeCast S1x128x128 (shapeCast S128x128 (extractStridedSlice S1x128x128 ![k, 0, 0] x hs) h1) h3) h5))
      (ix3 i j o) = term x ⟨k, lt_of_slices hs⟩ i j o := by
  have hk := lt_of_slices hs
  show max (_ - _) (-(_ - _)) = _
  have eA : broadcastTo S128x128x128 (shapeCast S128x1x128 (shapeCast S128x128 (extractStridedSlice S1x128x128 ![k, 0, 0] x hs) h1) h2) h4 (ix3 i j o)
      = x (ix3 ⟨k, hk⟩ i o) := by
    refine (broadcastTo_apply _ h4 (ix3 i j o) (ix3 i (0 : Fin 1) o) (fun a => match a with
      | ⟨0, _⟩ => by show i.val = if (128 : Nat) = 1 then 0 else i.val; rfl
      | ⟨1, _⟩ => by show (0 : Nat) = if (1 : Nat) = 1 then 0 else j.val; rfl
      | ⟨2, _⟩ => by show o.val = if (128 : Nat) = 1 then 0 else o.val; rfl)).trans ?_
    refine (shapeCast_apply _ h2 (ix3 i (0 : Fin 1) o) (ix2 i o) (by
      rw [Shape.rowMajor_val_two, Shape.rowMajor_val_three]
      show i.val * 128 + o.val = (i.val * 1 + 0) * 128 + o.val
      omega)).trans ?_
    refine (shapeCast_apply _ h1 (ix2 i o) (ix3 (0 : Fin 1) i o) (by
      rw [Shape.rowMajor_val_two, Shape.rowMajor_val_three]
      show (0 * 128 + i.val) * 128 + o.val = i.val * 128 + o.val
      omega)).trans ?_
    exact extractStridedSlice_apply _ x hs (ix3 (0 : Fin 1) i o) (ix3 ⟨k, hk⟩ i o) (fun a => match a with
      | ⟨0, _⟩ => by show k = k + 0; omega
      | ⟨1, _⟩ => by show i.val = 0 + i.val; omega
      | ⟨2, _⟩ => by show o.val = 0 + o.val; omega)
  have eB : broadcastTo S128x128x128 (shapeCast S1x128x128 (shapeCast S128x128 (extractStridedSlice S1x128x128 ![k, 0, 0] x hs) h1) h3) h5 (ix3 i j o)
      = x (ix3 ⟨k, hk⟩ j o) := by
    refine (broadcastTo_apply _ h5 (ix3 i j o) (ix3 (0 : Fin 1) j o) (fun a => match a with
      | ⟨0, _⟩ => by show (0 : Nat) = if (1 : Nat) = 1 then 0 else i.val; rfl
      | ⟨1, _⟩ => by show j.val = if (128 : Nat) = 1 then 0 else j.val; rfl
      | ⟨2, _⟩ => by show o.val = if (128 : Nat) = 1 then 0 else o.val; rfl)).trans ?_
    refine (shapeCast_apply _ h3 (ix3 (0 : Fin 1) j o) (ix2 j o) (by
      rw [Shape.rowMajor_val_two, Shape.rowMajor_val_three]
      show j.val * 128 + o.val = (0 * 128 + j.val) * 128 + o.val
      omega)).trans ?_
    refine (shapeCast_apply _ h1 (ix2 j o) (ix3 (0 : Fin 1) j o) (by
      rw [Shape.rowMajor_val_two, Shape.rowMajor_val_three]
      show (0 * 128 + j.val) * 128 + o.val = j.val * 128 + o.val
      omega)).trans ?_
    exact extractStridedSlice_apply _ x hs (ix3 (0 : Fin 1) j o) (ix3 ⟨k, hk⟩ j o) (fun a => match a with
      | ⟨0, _⟩ => by show k = k + 0; omega
      | ⟨1, _⟩ => by show j.val = 0 + j.val; omega
      | ⟨2, _⟩ => by show o.val = 0 + o.val; omega)
  unfold term
  rw [eA, eB]

/-! ## The payloads at an index -/

/-- The f32 zero word the accumulator starts from, and the f32 word of 1.0 taken off at the end. -/
local notation "zero32" => Ideal.ofBits FTy.f32 0x00000000#32
local notation "one32" => Ideal.ofBits FTy.f32 0x3F800000#32

/-- The shape cast of the loaded block to its own shape changes nothing. -/
theorem pay2_eq (x : Vec Ideal S20x128x128 .f32) : k2_pay2 (F := Ideal) x = x := by
  unfold k2_pay2
  exact shapeCast_self _ _

/-- Steps k = 0 … 4 onto the zero accumulator. -/
theorem pay3_apply (x : Vec Ideal S20x128x128 .f32) (i j o : Fin 128) :
    k2_pay3 (F := Ideal) x (ix3 i j o)
      = zero32 + term x 0 i j o + term x 1 i j o + term x 2 i j o + term x 3 i j o + term x 4 i j o := by
  unfold k2_pay3
  rw [pay2_eq]
  simp only [addf_apply, step_apply]
  rfl

/-- Steps k = 5 … 11 onto an accumulator v: step 5's difference arrives already formed. -/
theorem pay5_apply (x : Vec Ideal S20x128x128 .f32) (v : FVec Ideal S128x128x128 .f32) (i j o : Fin 128) :
    k2_pay5 (F := Ideal) (k2_pay2 x) v (k2_pay4 x) (ix3 i j o)
      = v (ix3 i j o) + term x 5 i j o + term x 6 i j o + term x 7 i j o + term x 8 i j o + term x 9 i j o
          + term x 10 i j o + term x 11 i j o := by
  unfold k2_pay5 k2_pay4
  rw [pay2_eq]
  simp only [addf_apply, step_apply]
  rfl

/-- Steps k = 12 … 18 onto an accumulator v: step 12's two reshaped rows arrive already formed. -/
theorem pay9_apply (y : FVec Ideal S20x128x128 .f32) (v : FVec Ideal S128x128x128 .f32) (i j o : Fin 128) :
    k2_pay9 (F := Ideal) y v (k2_pay7 y) (k2_pay8 y) (ix3 i j o)
      = v (ix3 i j o) + term y 12 i j o + term y 13 i j o + term y 14 i j o + term y 15 i j o + term y 16 i j o
          + term y 17 i j o + term y 18 i j o := by
  unfold k2_pay9 k2_pay7 k2_pay8 k2_pay6
  simp only [addf_apply, step_apply]
  rfl

/-- The index a sum over the second axis visits at its j-th term: (i, j, o). -/
theorem lift_eq (i o : Fin 128) (j : Fin 128) :
    (reduces_S128x128x128_S128x128 : S128x128x128.Reduces [1] S128x128).lift (ix2 i o) j = ix3 i j o :=
  funext fun a => match a with
    | ⟨0, _⟩ => Fin.ext rfl
    | ⟨1, _⟩ => Fin.ext rfl
    | ⟨2, _⟩ => Fin.ext rfl

/-- The last step (k = 19) onto an accumulator v, then exp of the negated total, summed over the second axis j,
    minus the word of 1.0. -/
theorem pay1_apply (y : FVec Ideal S20x128x128 .f32) (v : FVec Ideal S128x128x128 .f32) (i o : Fin 128) :
    k2_pay1 (F := Ideal) v (k2_pay10 y) (ix2 i o)
      = (∑ j : Fin 128, Ideal.exp (zero32 - (v (ix3 i j o) + term y 19 i j o))) - one32 := by
  unfold k2_pay1 k2_pay10
  simp only [subf_apply, broadcast_apply]
  refine congrArg (fun t => t - one32) ?_
  refine (Ideal.multiReduction_add_single (φ := .f32) _ _ reduces_S128x128x128_S128x128 _ _ (ix2 i o)).trans ?_
  show ∑ j : Fin 128, _ = _
  refine Finset.sum_congr rfl fun j _ => ?_
  rw [lift_eq]
  show Ideal.exp (zero32 - (v (ix3 i j o) + _)) = _
  rw [step_apply]
  rfl

/-- THE WHOLE PAYLOAD AT (i, o): Σⱼ exp (−Σₖ |x(k,i,o) − x(k,j,o)|) − 1. -/
theorem payload_apply (x : Vec Ideal S20x128x128 .f32) (i o : Fin 128) :
    k2_pay1 (F := Ideal) (k2_pay9 (k2_pay2 x) (k2_pay5 (k2_pay2 x) (k2_pay3 x) (k2_pay4 x)) (k2_pay7 (k2_pay2 x)) (k2_pay8 (k2_pay2 x)))
        (k2_pay10 (k2_pay2 x)) (ix2 i o)
      = (∑ j : Fin 128, Ideal.exp (-(∑ k : Fin 20, term x k i j o))) - one32 := by
  refine (pay1_apply _ _ i o).trans ?_
  refine congrArg (fun t => t - one32) (Finset.sum_congr rfl fun j _ => congrArg Ideal.exp ?_)
  rw [pay9_apply, pay5_apply, pay3_apply, pay2_eq]
  refine (congrArg (fun s => zero32 - s) (sum20 zero32 fun k => term x k i j o)).trans ?_
  rw [Ideal.ofBits_zero_f32, zero_add, zero_sub]

/-! ## What grid point t writes back -/

/-- The whole output array as one function of the input array: the minibatch feature of the projections m. -/
def G (c : Dev nD) : S128x512.Idx → Elt Ideal .f32 := fun i =>
  Cert.Spec.ob (fun k b o => V c main_v6 (ix3 k b o)) ⟨(i 0).val, idx2_lt0 i⟩ ⟨(i 1).val, idx2_lt1 i⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The two index maps over the four grid points: the input block is (0, 0, t), the output block (0, t). -/
theorem idx_facts : ∀ t : Fin cfg2.N, win2_0.index t (0 : Fin 3) = 0 ∧ win2_0.index t (1 : Fin 3) = 0
    ∧ win2_0.index t (2 : Fin 3) = t.val ∧ win2_1.index t (0 : Fin 2) = 0 ∧ win2_1.index t (1 : Fin 2) = t.val :=
  (by decide +kernel : ∀ t : Fin grid2.N, _)

/-- A grid point is one of four. -/
theorem t_lt (t : Fin cfg2.N) : t.val < 4 := by
  have h : t.val < grid2.N := t.isLt
  rw [N_2] at h
  exact h

/-- Lane o of block t is column 128 t + o of the array. -/
theorem col_lt (t : Fin cfg2.N) (o : Fin 128) : t.val * 128 + o.val < 512 := by
  have := t_lt t
  have := o.isLt
  omega

/-- The input block of point t at (k, i, o) is the input array at (k, i, 128 t + o). -/
theorem iblk_apply (c : Dev nD) (t : Fin cfg2.N) (k : Fin 20) (i o : Fin 128) :
    iblk2 (F := Ideal) V c 0 t (ix3 k i o)
      = V c main_v6 (ix3 k i (⟨t.val * 128 + o.val, col_lt t o⟩ : Fin 512)) := by
  obtain ⟨e0, e1, e2, e3, e4⟩ := idx_facts t
  show V c main_v6 (((cfg2.win 0).blk t).view.emb (ix3 k i o)) = _
  refine congrArg (V c main_v6) ?_
  funext a; apply Fin.ext
  match a with
  | ⟨0, _⟩ => show win2_0.index t (0 : Fin 3) * 20 + 1 * k.val = k.val; omega
  | ⟨1, _⟩ => show win2_0.index t (1 : Fin 3) * 128 + 1 * i.val = i.val; omega
  | ⟨2, _⟩ => show win2_0.index t (2 : Fin 3) * 128 + 1 * o.val = t.val * 128 + o.val; omega

/-- The output block of point t at (i, o) sits at (i, 128 t + o) of the array. -/
theorem oblk_emb (t : Fin cfg2.N) (i o : Fin 128) :
    ((cfg2.win 1).blk t).view.emb (ix2 i o) = ix2 i (⟨t.val * 128 + o.val, col_lt t o⟩ : Fin 512) := by
  obtain ⟨e0, e1, e2, e3, e4⟩ := idx_facts t
  funext a; apply Fin.ext
  match a with
  | ⟨0, _⟩ => show win2_1.index t (0 : Fin 2) * 128 + 1 * i.val = i.val; omega
  | ⟨1, _⟩ => show win2_1.index t (1 : Fin 2) * 128 + 1 * o.val = t.val * 128 + o.val; omega

/-- WHAT POINT t WRITES BACK is block t of G. -/
theorem flushed_eq (c : Dev nD) (t : Fin cfg2.N) :
    (dat2 (F := Ideal) V c).flushed 1 t = ((cfg2.win 1).blk t).view.read (Elt Ideal) (G V c) := by
  show (cfg2.win 1).cut (grid2.coords t) ((dat2 V c).after 1 t) = _
  rw [after2_1]
  unfold out2_1
  rw [View.canon_unit_zero hz2]
  simp only [View.ld_unit_zero (S := S20x128x128) hz3]
  funext y
  obtain ⟨i, o, rfl⟩ : ∃ (i o : Fin 128), y = ix2 i o := ⟨y 0, y 1, eq_ix2 y⟩
  refine (payload_apply (iblk2 (F := Ideal) V c 0 t) i o).trans ?_
  show _ = G V c (((cfg2.win 1).blk t).view.emb (ix2 i o))
  rw [oblk_emb]
  unfold G Cert.Spec.ob Cert.Spec.dist
  refine congrArg (fun s => s - Ideal.ofBits FTy.f32 0x3F800000#32)
    (Finset.sum_congr rfl fun j _ => congrArg Ideal.exp (congrArg Neg.neg (Finset.sum_congr rfl fun k _ => ?_)))
  unfold term
  rw [iblk_apply, iblk_apply]

/-! ## The blocks cover the array, and the array after the four points -/

/-- An index of the array is in point t's block iff each coordinate is in the block's range on its axis. -/
theorem mem_blk (t : Fin cfg2.N) (i : S128x512.Idx) :
    i ∈ ((cfg2.win 1).blk t).view.set ↔ ∀ a : Fin 2, win2_1.index t a * S128x128.size a ≤ (i a).val
      ∧ (i a).val < win2_1.index t a * S128x128.size a + S128x128.size a := by
  show i ∈ ((View.whole main_v7).slice (win2_1.rect t)).set ↔ _
  rw [View.set_slice_whole, Rect.mem_set_unit]
  exact Iff.rfl

/-- Column q of the array is in the block of point q / 128, and every point writes back. -/
theorem cover (i : S128x512.Idx) :
    ∃ t : Fin cfg2.N, (cfg2.win 1).flush t = true ∧ i ∈ ((cfg2.win 1).blk t).view.set := by
  have hi0 : (i 0).val < 128 := (i 0).isLt
  have hi1 : (i 1).val < 512 := (i 1).isLt
  have hN : grid2.N = 4 := N_2
  have hq : (i 1).val / 128 < grid2.N := by rw [hN]; omega
  obtain ⟨e0, e1, e2, e3, e4⟩ := idx_facts ⟨(i 1).val / 128, hq⟩
  refine ⟨⟨(i 1).val / 128, hq⟩, flush2_1 _, ?_⟩
  rw [mem_blk]
  intro a
  match a with
  | ⟨0, _⟩ =>
    show win2_1.index ⟨(i 1).val / 128, hq⟩ (0 : Fin 2) * 128 ≤ (i 0).val
      ∧ (i 0).val < win2_1.index ⟨(i 1).val / 128, hq⟩ (0 : Fin 2) * 128 + 128
    omega
  | ⟨1, _⟩ =>
    show win2_1.index ⟨(i 1).val / 128, hq⟩ (1 : Fin 2) * 128 ≤ (i 1).val
      ∧ (i 1).val < win2_1.index ⟨(i 1).val / 128, hq⟩ (1 : Fin 2) * 128 + 128
    have e4' : win2_1.index ⟨(i 1).val / 128, hq⟩ (1 : Fin 2) = (i 1).val / 128 := e4
    omega

/-- THE OUTPUT ARRAY after the four grid points, at (b, o): the minibatch feature of the input array. -/
theorem final2 (c : Dev nD) (b : Fin 128) (o : Fin 512) :
    (dat2 (F := Ideal) V c).arrAt 1 cfg2.N (ix2 b o) =
      Cert.Spec.ob (fun k b o => V c main_v6 (ix3 k b o)) b o :=
  congrFun ((dat2 (F := Ideal) V c).arrAt_eq_of_cover 1 (G V c) (fun t _ => flushed_eq V c t) cover) (ix2 b o)

end Cert.KernelIdeal.Pairwise

end
-- ==== Proof.Net.lean ====
/-
  The two arrays the host tail joins, as functions of the ten argument arrays: the hidden activations h3 and the
  minibatch feature, each read off the specification at the arrays' coordinates. The projection tensor T [1024, 512, 20]
  enters the projection as T (j, o, k); the biases are rank-one arrays.
-/
import proofs.«164673_j24532853195159_1_alg».proof.Proof.Spec
import Idealize.ShloMosaic.Lib.ValueIdx

noncomputable section

namespace Cert.Net

open Idealize.ShloMosaic Idealize.ShloMosaic.ValueIdx

/-- The hidden activations of the argument arrays x, W1, b1, W2, b2, W3, b3. -/
def h3A (x0 : (⟨2, ![128, 512]⟩ : Shape).Idx → EReal) (x1 : (⟨2, ![512, 512]⟩ : Shape).Idx → EReal)
    (x2 : (⟨1, ![512]⟩ : Shape).Idx → EReal) (x3 : (⟨2, ![512, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) : Fin 128 → Fin 1024 → EReal :=
  Cert.Spec.h3 (fun p k => x0 (ix2 p k)) (fun k h => x1 (ix2 k h)) (fun h => x2 (ix1 h)) (fun k h => x3 (ix2 k h))
    (fun h => x4 (ix1 h)) (fun k h => x5 (ix2 k h)) (fun h => x6 (ix1 h))

/-- The minibatch feature of those and of the projection tensor T. -/
def obA (x0 : (⟨2, ![128, 512]⟩ : Shape).Idx → EReal) (x1 : (⟨2, ![512, 512]⟩ : Shape).Idx → EReal)
    (x2 : (⟨1, ![512]⟩ : Shape).Idx → EReal) (x3 : (⟨2, ![512, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x7 : (⟨3, ![1024, 512, 20]⟩ : Shape).Idx → EReal) :
    Fin 128 → Fin 512 → EReal :=
  Cert.Spec.ob (Cert.Spec.mm (h3A x0 x1 x2 x3 x4 x5 x6) (fun j o k => x7 (ix3 j o k)))

/-- h3 as an array over [128, 1024]. -/
def h3Arr (x0 : (⟨2, ![128, 512]⟩ : Shape).Idx → EReal) (x1 : (⟨2, ![512, 512]⟩ : Shape).Idx → EReal)
    (x2 : (⟨1, ![512]⟩ : Shape).Idx → EReal) (x3 : (⟨2, ![512, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) : (⟨2, ![128, 1024]⟩ : Shape).Idx → EReal :=
  fun i => h3A x0 x1 x2 x3 x4 x5 x6 (i 0) (i 1)

/-- The feature as an array over [128, 512]. -/
def obArr (x0 : (⟨2, ![128, 512]⟩ : Shape).Idx → EReal) (x1 : (⟨2, ![512, 512]⟩ : Shape).Idx → EReal)
    (x2 : (⟨1, ![512]⟩ : Shape).Idx → EReal) (x3 : (⟨2, ![512, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x7 : (⟨3, ![1024, 512, 20]⟩ : Shape).Idx → EReal) :
    (⟨2, ![128, 512]⟩ : Shape).Idx → EReal :=
  fun i => obA x0 x1 x2 x3 x4 x5 x6 x7 (i 0) (i 1)

end Cert.Net

end
-- ==== Proof.Chain.lean ====
/-
  The kernel program's result as one term of the launch memory. @main is three host reshapes, the dense-layer call, a host
  transpose and format change of the projection tensor, the projection call, the pairwise call, and five host operations
  (concatenate, the final product with Wc, the bias broadcast twice, the sum). The buffer contents at each boundary are a
  fold from the launch memory; read back through it, the result buffer is the host tail applied to the dense call's
  output array, the pairwise call's output array, Wc and bc, and each call's operand arrays are the earlier calls'
  outputs or the launch arrays re-laid by the host.
-/
import proofs.«164673_j24532853195159_1_alg».proof.Proof.Gen.KernelIdeal.Frame
import proofs.«164673_j24532853195159_1_alg».proof.Proof.Net
import Idealize.ShloMosaic.Lib.ValueIdx
import Idealize.ShloMosaic.Lib.Pipeline.Value
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The five host operations after the last call, as one function of the two arrays they join and of Wc and bc. -/
def tail {F : FTy → Type} [FloatOps F] (a : (⟨S128x1024, .f32⟩ : BufTy).Contents (Elt F)) (b : (⟨S128x512, .f32⟩ : BufTy).Contents (Elt F)) (wc : (⟨S1536x1, .f32⟩ : BufTy).Contents (Elt F)) (bc : (⟨S1, .f32⟩ : BufTy).Contents (Elt F)) : (⟨S128x1, .f32⟩ : BufTy).Contents (Elt F) :=
  (addf : (⟨S128x1, .f32⟩ : BufTy).Contents (Elt F) → (⟨S128x1, .f32⟩ : BufTy).Contents (Elt F) → (⟨S128x1, .f32⟩ : BufTy).Contents (Elt F))
    (((fun l r => Host.dotGeneral dot_S128x1536_S1536x1_S128x1_1_0_0_1_n_n none l r) : (⟨S128x1536, .f32⟩ : BufTy).Contents (Elt F) → (⟨S1536x1, .f32⟩ : BufTy).Contents (Elt F) → (⟨S128x1, .f32⟩ : BufTy).Contents (Elt F))
      (((fun a b => concatenate S128x1536 1 [⟨S128x1024, a⟩, ⟨S128x512, b⟩] concatenates_S128x1024_S128x512_S128x1536_d1) : (⟨S128x1024, .f32⟩ : BufTy).Contents (Elt F) → (⟨S128x512, .f32⟩ : BufTy).Contents (Elt F) → (⟨S128x1536, .f32⟩ : BufTy).Contents (Elt F)) a b) wc)
    ((broadcastInDim S128x1 ![0, 1] bcast_S1x1_S128x1_0_1 : (⟨S1x1, .f32⟩ : BufTy).Contents (Elt F) → (⟨S128x1, .f32⟩ : BufTy).Contents (Elt F))
      ((broadcastInDim S1x1 ![1] bcast_S1_S1x1_1 : (⟨S1, .f32⟩ : BufTy).Contents (Elt F) → (⟨S1x1, .f32⟩ : BufTy).Contents (Elt F)) bc))

/-- The result buffer at the last boundary is the tail of the last region's exit contents. -/
theorem W6_result (c : Dev nD) :
    W6 m ρ c (Proc.devRef .tc main_v12)
      = tail (W5 m ρ c (Proc.devRef .tc main_v3)) (W5 m ρ c (Proc.devRef .tc main_v7))
          (W5 m ρ c (Proc.devRef .tc main_arg8)) (W5 m ρ c (Proc.devRef .tc main_arg9)) := by
  show StableHlo.after hostOps3 (W5 m ρ c) (Proc.devRef .tc main_v12) = _
  after_results
  rfl

/-! ## The boundaries read back -/

/-- The pairwise call's output array is what its pipeline leaves. -/
theorem W5_feature (c : Dev nD) : W5 m ρ c (Proc.devRef .tc main_v7) = (dat2 (V4 m ρ) c).arrAt 1 cfg2.N :=
  W5_arr m ρ c 1

/-- The dense call's output array, untouched by the later calls and host operations, is what its pipeline leaves. -/
theorem W3_hidden (c : Dev nD) : W3 m ρ c (Proc.devRef .tc main_v3) = (dat0 (V1 m ρ) c).arrAt 7 cfg0.N :=
  calc W3 m ρ c (Proc.devRef .tc main_v3)
    _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 7 cfg0.N := W2_arr m ρ c 7

theorem W5_hidden (c : Dev nD) : W5 m ρ c (Proc.devRef .tc main_v3) = (dat0 (V1 m ρ) c).arrAt 7 cfg0.N :=
  calc W5 m ρ c (Proc.devRef .tc main_v3)
    _ = W4 m ρ c (Proc.devRef .tc main_v3) := W5_of_ne m ρ c main_v3 (by decide)
    _ = W3 m ρ c (Proc.devRef .tc main_v3) := (W4_arr m ρ c 0).trans (((dat1 (V3 m ρ) c).arrAt_in 0 rfl _).trans (A_eq1 (V3 m ρ) c 0))
    _ = (dat0 (V1 m ρ) c).arrAt 7 cfg0.N := W3_hidden m ρ c

/-- Wc and bc reach the tail as launched. -/
theorem W5_arg8 (c : Dev nD) : W5 m ρ c (Proc.devRef .tc main_arg8) = m ((c : Thread nD τ).loc main_arg8) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg8) = W5 m ρ c (Proc.devRef .tc main_arg8)).symm.trans (W6_main_arg8 m ρ c)
theorem W5_arg9 (c : Dev nD) : W5 m ρ c (Proc.devRef .tc main_arg9) = m ((c : Thread nD τ).loc main_arg9) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg9) = W5 m ρ c (Proc.devRef .tc main_arg9)).symm.trans (W6_main_arg9 m ρ c)

/-- The pairwise call's operand is the projection call's output array. -/
theorem V4_proj (c : Dev nD) : V4 m ρ c main_v6 = (dat1 (V3 m ρ) c).arrAt 2 cfg1.N := W4_arr m ρ c 2

/-- The projection call's left operand is the dense call's output array. -/
theorem V3_hidden (c : Dev nD) : V3 m ρ c main_v3 = (dat0 (V1 m ρ) c).arrAt 7 cfg0.N := W3_hidden m ρ c

/-- The projection tensor reaches the host transpose as launched. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The projection call's right operand is the transposed projection tensor (the format change is the identity). -/
theorem V3_tensor (c : Dev nD) : V3 m ρ c main_v5
    = (truncf (F := Ideal) .bf16 (transpose S20x1024x512 [2, 0, 1] (W2 m ρ c (Proc.devRef .tc main_arg7)) transposes_S1024x512x20_S20x1024x512_2_0_1) bitsLt_bf16_f32 : (⟨S20x1024x512, .bf16⟩ : BufTy).Contents (Elt Ideal)) := by
  show StableHlo.after hostOps1 (W2 m ρ c) (Proc.devRef .tc main_v5) = _
  after_results

/-- The dense call's array operands are the launch arrays … -/
theorem V1_arg0 (c : Dev nD) : V1 m ρ c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V1_arg1 (c : Dev nD) : V1 m ρ c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V1_arg3 (c : Dev nD) : V1 m ρ c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V1_arg5 (c : Dev nD) : V1 m ρ c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- … and its bias rows are the launch biases reshaped to one row. -/
theorem V1_row0 (c : Dev nD) : V1 m ρ c main_v0 = shapeCast S1x512 (m ((c : Thread nD τ).loc main_arg2)) shapeCasts_S512_S1x512 := by
  show StableHlo.after hostOps0 (W0 m ρ c) (Proc.devRef .tc main_v0) = _
  after_results
  rfl
theorem V1_row1 (c : Dev nD) : V1 m ρ c main_v1 = shapeCast S1x1024 (m ((c : Thread nD τ).loc main_arg4)) shapeCasts_S1024_S1x1024 := by
  show StableHlo.after hostOps0 (W0 m ρ c) (Proc.devRef .tc main_v1) = _
  after_results
  rfl
theorem V1_row2 (c : Dev nD) : V1 m ρ c main_v2 = shapeCast S1x1024 (m ((c : Thread nD τ).loc main_arg6)) shapeCasts_S1024_S1x1024 := by
  show StableHlo.after hostOps0 (W0 m ρ c) (Proc.devRef .tc main_v2) = _
  after_results
  rfl

end Cert.KernelIdeal.Chain

end
-- ==== Proof.Project.lean ====
/-
  The second pallas_call: for each of the 20 kernels k, the block m[k] = h3 · T_t[k], an [128, 1024] by [1024, 512] product.
  Read at the ideal values, element (k, b, o) of the result array is  Σⱼ h3 (b, j) · T_t (k, j, o) : grid point k loads
  the whole of h3 and the k-th [1, 1024, 512] slab of T_t, and writes the k-th [1, 128, 512] slab of the result; the 20
  slabs tile the result array, so after the last point the array is that sum at every index.
-/
import proofs.«164673_j24532853195159_1_alg».proof.Proof.Gen.KernelIdeal.Frame
import proofs.«164673_j24532853195159_1_alg».proof.Proof.Spec
import proofs.«164673_j24532853195159_1_alg».proof.Proof.LibMatmul2
import Idealize.ShloMosaic.Lib.ValueIdx
import Idealize.ShloMosaic.Lib.Pipeline.Value
import Idealize.ShloMosaic.PureOps.Ideal.Laws

set_option maxRecDepth 16384

noncomputable section

namespace Cert.KernelIdeal.Project

open Cert.KernelIdeal Cert.KernelIdeal.Gen Idealize.ShloMosaic Idealize.ShloMosaic.TcCoe Idealize.SL.Sem Idealize.ShloMosaic.ValueIdx

/-! ## The product's dimension record: which operand coordinate is which -/

theorem lhs_0 (i : S128x512.Idx) (q : dot_S128x1024_S1024x512_S128x512_1_0_0_1_n_n.contr.Idx) : (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem lhs_1 (i : S128x512.Idx) (q : dot_S128x1024_S1024x512_S128x512_1_0_0_1_n_n.contr.Idx) : (dot_S128x1024_S1024x512_S128x512_1_0_0_1_n_n.lhsIdx i q 1).val = (q ⟨0, by decide⟩).val :=
  dot_S128x1024_S1024x512_S128x512_1_0_0_1_n_n.lhsIdx_val_of_single rfl i q
theorem rhs_0 (i : S128x512.Idx) (q : dot_S128x1024_S1024x512_S128x512_1_0_0_1_n_n.contr.Idx) : (dot_S128x1024_S1024x512_S128x512_1_0_0_1_n_n.rhsIdx i q 0).val = (q ⟨0, by decide⟩).val :=
  dot_S128x1024_S1024x512_S128x512_1_0_0_1_n_n.rhsIdx_val_of_single rfl i q
theorem rhs_1 (i : S128x512.Idx) (q : dot_S128x1024_S1024x512_S128x512_1_0_0_1_n_n.contr.Idx) : (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-! ## The body's stored value at an index -/

/-- The slab a point stores, at (0, b, o), is the row b of the left block against the column o of the right slab. -/
theorem pay_apply (x0 : Vec Ideal S128x1024 .f32) (x1 : Vec Ideal S1x1024x512 .bf16) (b : Fin 128) (o : Fin 512) :
    k1_pay1 x0 x1 (ix3 (0 : Fin 1) b o) = ∑ j : Fin 1024, x0 (ix2 b j) * x1 (ix3 (0 : Fin 1) j o) := by
  unfold k1_pay1
  refine (shapeCast_apply _ shapeCasts_S128x512_S1x128x512 (ix3 (0 : Fin 1) b o) (ix2 b o) ?_).trans ?_
  · rw [Shape.rowMajor_val_two, Shape.rowMajor_val_three]
    show b.val * 512 + o.val = (0 * 128 + b.val) * 512 + o.val
    omega
  refine (Cert.LibMatmul2.matmul_zero_apply dot_S128x1024_S1024x512_S128x512_1_0_0_1_n_n rfl rfl lhs_0 lhs_1 rhs_0 rhs_1 _ _ b o).trans ?_
  refine Finset.sum_congr rfl fun j _ => ?_
  have e0 : (truncf .bf16 (shapeCast S128x1024 x0 shapeCasts_S128x1024_S128x1024) bitsLt_bf16_f32 : FVec Ideal S128x1024 .bf16) (ix2 b j) = x0 (ix2 b j) := by
    rw [shapeCast_self]; rfl
  have e1 : shapeCast S1024x512 x1 shapeCasts_S1x1024x512_S1024x512 (ix2 j o) = x1 (ix3 (0 : Fin 1) j o) := by
    refine shapeCast_apply _ _ (ix2 j o) (ix3 (0 : Fin 1) j o) ?_
    rw [Shape.rowMajor_val_two, Shape.rowMajor_val_three]
    show (0 * 1024 + j.val) * 512 + o.val = j.val * 512 + o.val
    omega
  rw [e0, e1]

/-! ## From the slabs to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The left operand's array as the call finds it: the hidden activations. -/
abbrev hArr (c : Dev nD) : S128x1024.Idx → EReal := V c main_v3
/-- The right operand's array as the call finds it: the transposed projection tensor. -/
abbrev tArr (c : Dev nD) : S20x1024x512.Idx → EReal := V c main_v5

/-- The result array as one function of the two operand arrays the call finds. -/
def M (c : Dev nD) : S20x128x512.Idx → EReal := fun i =>
  Cert.Spec.mm (fun b j => hArr V c (ix2 b j)) (fun j o k => tArr V c (ix3 k j o)) (i 0) (i 1) (i 2)

/-- The index maps over the grid: the left operand's block never moves, the right operand's and the result's slab
    index is the grid point. -/
theorem idx_facts : ∀ t : Fin cfg1.N, win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point t writes back is slab t of M. -/
theorem flushed_eq (c : Dev nD) (t : Fin cfg1.N) :
    (dat1 (F := Ideal) V c).flushed 2 t = ((cfg1.win 2).blk t).view.read (Elt Ideal) (M V c) := by
  show (cfg1.win 2).cut (grid1.coords t) ((dat1 (F := Ideal) V c).after 2 t) = _
  rw [after1_2]
  unfold out1_2
  rw [View.canon_unit_zero hz3]
  simp only [View.ld_unit_zero (S := S128x1024) hz2, View.ld_unit_zero (S := S1x1024x512) hz3]
  obtain ⟨e00, e01, e10, e11, e12, e20, e21, e22⟩ := idx_facts t
  funext y
  obtain ⟨u, b, o, rfl⟩ : ∃ (u : Fin 1) (b : Fin 128) (o : Fin 512), y = ix3 u b o := ⟨y 0, y 1, y 2, eq_ix3 y⟩
  obtain rfl : u = 0 := Subsingleton.elim _ _
  show k1_pay1 (iblk1 V c 0 t) (iblk1 V c 1 t) (ix3 (0 : Fin 1) b o) = M V c (((cfg1.win 2).blk t).view.emb (ix3 (0 : Fin 1) b o))
  refine (pay_apply (iblk1 V c 0 t) (iblk1 V c 1 t) b o).trans ?_
  unfold M Cert.Spec.mm
  refine Finset.sum_congr rfl fun j _ => ?_
  show hArr V c (((cfg1.win 0).blk t).view.emb (ix2 b j)) * tArr V c (((cfg1.win 1).blk t).view.emb (ix3 (0 : Fin 1) j o)) = _
  have h0 : ((cfg1.win 0).blk t).view.emb (ix2 b j) = ix2 (((cfg1.win 2).blk t).view.emb (ix3 (0 : Fin 1) b o) 1) j := by
    funext a; apply Fin.ext
    match a with
    | ⟨0, _⟩ => show win1_0.index t (0 : Fin 2) * 128 + 1 * b.val = win1_2.index t (1 : Fin 3) * 128 + 1 * b.val; omega
    | ⟨1, _⟩ => show win1_0.index t (1 : Fin 2) * 1024 + 1 * j.val = j.val; omega
  have h1 : ((cfg1.win 1).blk t).view.emb (ix3 (0 : Fin 1) j o)
      = ix3 (((cfg1.win 2).blk t).view.emb (ix3 (0 : Fin 1) b o) 0) j (((cfg1.win 2).blk t).view.emb (ix3 (0 : Fin 1) b o) 2) := by
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 1024 + 1 * j.val = j.val; omega
    | ⟨2, _⟩ => show win1_1.index t (2 : Fin 3) * 512 + 1 * o.val = win1_2.index t (2 : Fin 3) * 512 + 1 * o.val; omega
  rw [h0, h1]
  rfl

/-- An index of the array is in point t's slab iff each coordinate is in the slab's range on its axis. -/
theorem mem_blk (t : Fin cfg1.N) (i : S20x128x512.Idx) :
    i ∈ ((cfg1.win 2).blk t).view.set ↔ ∀ a : Fin 3, win1_2.index t a * S1x128x512.size a ≤ (i a).val ∧ (i a).val < win1_2.index t a * S1x128x512.size a + S1x128x512.size a := by
  show i ∈ ((View.whole main_v6).slice (win1_2.rect t)).set ↔ _
  rw [View.set_slice_whole, Rect.mem_set_unit]
  exact Iff.rfl

/-- Every index lies in the slab of the point its first coordinate names. -/
theorem cover (i : S20x128x512.Idx) : ∃ t : Fin cfg1.N, (cfg1.win 2).flush t = true ∧ i ∈ ((cfg1.win 2).blk t).view.set := by
  have hi0 : (i 0).val < 20 := (i 0).isLt
  have hi1 : (i 1).val < 128 := (i 1).isLt
  have hi2 : (i 2).val < 512 := (i 2).isLt
  refine ⟨⟨(i 0).val, hi0⟩, flush1_2 _, ?_⟩
  obtain ⟨-, -, -, -, -, e20, e21, e22⟩ := idx_facts ⟨(i 0).val, hi0⟩
  have e20' : win1_2.index ⟨(i 0).val, hi0⟩ (0 : Fin 3) = (i 0).val := e20
  rw [mem_blk]
  intro a
  match a with
  | ⟨0, _⟩ => show win1_2.index ⟨(i 0).val, hi0⟩ (0 : Fin 3) * 1 ≤ (i 0).val ∧ (i 0).val < win1_2.index ⟨(i 0).val, hi0⟩ (0 : Fin 3) * 1 + 1; omega
  | ⟨1, _⟩ => show win1_2.index ⟨(i 0).val, hi0⟩ (1 : Fin 3) * 128 ≤ (i 1).val ∧ (i 1).val < win1_2.index ⟨(i 0).val, hi0⟩ (1 : Fin 3) * 128 + 128; omega
  | ⟨2, _⟩ => show win1_2.index ⟨(i 0).val, hi0⟩ (2 : Fin 3) * 512 ≤ (i 2).val ∧ (i 2).val < win1_2.index ⟨(i 0).val, hi0⟩ (2 : Fin 3) * 512 + 512; omega

/-- The result array after the 20 points. -/
theorem final (c : Dev nD) : (dat1 (F := Ideal) V c).arrAt 2 cfg1.N = M V c :=
  (dat1 (F := Ideal) V c).arrAt_eq_of_cover 2 (M V c) (fun t _ => flushed_eq V c t) cover

/-- … read at (k, b, o): the sum over the hidden units j of h3 (b, j) · T_t (k, j, o). -/
theorem final1 (c : Dev nD) (k : Fin 20) (b : Fin 128) (o : Fin 512) :
    (dat1 (F := Ideal) V c).arrAt 2 cfg1.N (ix3 k b o) =
      Cert.Spec.mm (fun b j => V c main_v3 (ix2 b j)) (fun j o k => V c main_v5 (ix3 k j o)) k b o :=
  congrFun (final V c) (ix3 k b o)

end Cert.KernelIdeal.Project

end
-- ==== Proof.Result.lean ====
/-
  The kernel program's result buffer as the host tail of two functions of the launch arrays: the dense call's output is the
  specification's hidden activations of x, W1, b1, W2, b2, W3, b3; the projection call's output at (k, b, o) is their
  projection on T (j, o, k), the host's transpose moving T's last axis to the front; the pairwise call's output is the
  minibatch feature of that projection. Each call's value is stated at whatever contents the call is entered with, and
  is instantiated here at the contents the earlier calls and host operations leave.
-/
import proofs.«164673_j24532853195159_1_alg».proof.Proof.Chain
import proofs.«164673_j24532853195159_1_alg».proof.Proof.Project
import proofs.«164673_j24532853195159_1_alg».proof.Proof.Net

set_option maxRecDepth 16384

noncomputable section

namespace Cert.KernelIdeal.Result

open Cert.KernelIdeal Cert.KernelIdeal.Gen Cert.KernelIdeal.Chain Idealize.ShloMosaic Idealize.ShloMosaic.TcCoe Idealize.SL.Sem Idealize.ShloMosaic.ValueIdx

variable (m : (ℓ : Loc nD τ sig) → Buf (Elt Ideal) ℓ) (ρ : Dev nD → PrngReg)

/-! ## The launch arrays, at their literal types -/

abbrev a0 (c : Dev nD) : S128x512.Idx → EReal := m ((c : Thread nD τ).loc main_arg0)
abbrev a1 (c : Dev nD) : S512x512.Idx → EReal := m ((c : Thread nD τ).loc main_arg1)
abbrev a2 (c : Dev nD) : S512.Idx → EReal := m ((c : Thread nD τ).loc main_arg2)
abbrev a3 (c : Dev nD) : S512x1024.Idx → EReal := m ((c : Thread nD τ).loc main_arg3)
abbrev a4 (c : Dev nD) : S1024.Idx → EReal := m ((c : Thread nD τ).loc main_arg4)
abbrev a5 (c : Dev nD) : S1024x1024.Idx → EReal := m ((c : Thread nD τ).loc main_arg5)
abbrev a6 (c : Dev nD) : S1024.Idx → EReal := m ((c : Thread nD τ).loc main_arg6)
abbrev a7 (c : Dev nD) : S1024x512x20.Idx → EReal := m ((c : Thread nD τ).loc main_arg7)
abbrev a8 (c : Dev nD) : S1536x1.Idx → EReal := m ((c : Thread nD τ).loc main_arg8)
abbrev a9 (c : Dev nD) : S1.Idx → EReal := m ((c : Thread nD τ).loc main_arg9)

/-- The projection call's operands as that call finds them, at their literal types. -/
abbrev hidV (c : Dev nD) : S128x1024.Idx → EReal := V3 m ρ c main_v3
abbrev tenV (c : Dev nD) : S20x1024x512.Idx → EReal := V3 m ρ c main_v5

/-- A rank-one array reshaped to one row reads, at (0, j), the array at j. -/
theorem row_apply {n : Nat} (v : (⟨1, ![n]⟩ : Shape).Idx → EReal) (h : (⟨1, ![n]⟩ : Shape).ShapeCasts ⟨2, ![1, n]⟩) (j : Fin n) :
    shapeCast ⟨2, ![1, n]⟩ v h (ix2 (0 : Fin 1) j) = v (ix1 j) := by
  refine shapeCast_apply v h (ix2 (0 : Fin 1) j) (ix1 j) ?_
  rw [Shape.rowMajor_val_one, Shape.rowMajor_val_two]
  show j.val = 0 * n + j.val
  omega

/-- The dense call's output array is the hidden activations of the launch arrays. -/
theorem hidden_eq (H0 : (∀ (V : (c : Dev nD) → (b : Ref sig .tc) → Buf (Elt Ideal) ((c : Thread nD τ).loc b)) (c : Dev nD) (p : Fin 128) (h : Fin 1024),
      (dat0 (F := Ideal) V c).arrAt 7 cfg0.N (ix2 p h) =
        Cert.Spec.h3 (fun p k => V c main_arg0 (ix2 p k)) (fun k h => V c main_arg1 (ix2 k h)) (fun h => V c main_v0 (ix2 0 h))
          (fun k h => V c main_arg3 (ix2 k h)) (fun h => V c main_v1 (ix2 0 h))
          (fun k h => V c main_arg5 (ix2 k h)) (fun h => V c main_v2 (ix2 0 h)) p h)) (c : Dev nD) :
    ((dat0 (F := Ideal) (V1 m ρ) c).arrAt 7 cfg0.N : S128x1024.Idx → EReal) = Cert.Net.h3Arr (a0 m c) (a1 m c) (a2 m c) (a3 m c) (a4 m c) (a5 m c) (a6 m c) := by
  funext i
  obtain ⟨p, h, rfl⟩ : ∃ (p : Fin 128) (h : Fin 1024), i = ix2 p h := ⟨i 0, i 1, eq_ix2 i⟩
  refine (H0 (V1 m ρ) c p h).trans ?_
  rw [V1_arg0 m ρ c, V1_arg1 m ρ c, V1_arg3 m ρ c, V1_arg5 m ρ c, V1_row0 m ρ c, V1_row1 m ρ c, V1_row2 m ρ c]
  have r0 : (fun h : Fin 512 => shapeCast S1x512 (a2 m c) shapeCasts_S512_S1x512 (ix2 (0 : Fin 1) h)) = fun h => a2 m c (ix1 h) :=
    funext fun h => row_apply (a2 m c) shapeCasts_S512_S1x512 h
  have r1 : (fun h : Fin 1024 => shapeCast S1x1024 (a4 m c) shapeCasts_S1024_S1x1024 (ix2 (0 : Fin 1) h)) = fun h => a4 m c (ix1 h) :=
    funext fun h => row_apply (a4 m c) shapeCasts_S1024_S1x1024 h
  have r2 : (fun h : Fin 1024 => shapeCast S1x1024 (a6 m c) shapeCasts_S1024_S1x1024 (ix2 (0 : Fin 1) h)) = fun h => a6 m c (ix1 h) :=
    funext fun h => row_apply (a6 m c) shapeCasts_S1024_S1x1024 h
  show Cert.Spec.h3 (fun p k => a0 m c (ix2 p k)) (fun k h => a1 m c (ix2 k h))
      (fun h : Fin 512 => shapeCast S1x512 (a2 m c) shapeCasts_S512_S1x512 (ix2 (0 : Fin 1) h))
      (fun k h => a3 m c (ix2 k h))
      (fun h : Fin 1024 => shapeCast S1x1024 (a4 m c) shapeCasts_S1024_S1x1024 (ix2 (0 : Fin 1) h))
      (fun k h => a5 m c (ix2 k h))
      (fun h : Fin 1024 => shapeCast S1x1024 (a6 m c) shapeCasts_S1024_S1x1024 (ix2 (0 : Fin 1) h)) p h = _
  rw [r0, r1, r2]
  rfl

/-- The projection call's output at (k, b, o) is the projection of the hidden activations on T (j, o, k). -/
theorem proj_eq (H0 : (∀ (V : (c : Dev nD) → (b : Ref sig .tc) → Buf (Elt Ideal) ((c : Thread nD τ).loc b)) (c : Dev nD) (p : Fin 128) (h : Fin 1024),
      (dat0 (F := Ideal) V c).arrAt 7 cfg0.N (ix2 p h) =
        Cert.Spec.h3 (fun p k => V c main_arg0 (ix2 p k)) (fun k h => V c main_arg1 (ix2 k h)) (fun h => V c main_v0 (ix2 0 h))
          (fun k h => V c main_arg3 (ix2 k h)) (fun h => V c main_v1 (ix2 0 h))
          (fun k h => V c main_arg5 (ix2 k h)) (fun h => V c main_v2 (ix2 0 h)) p h)) (c : Dev nD) (k : Fin 20) (b : Fin 128) (o : Fin 512) :
    V4 m ρ c main_v6 (ix3 k b o)
      = Cert.Spec.mm (Cert.Net.h3A (a0 m c) (a1 m c) (a2 m c) (a3 m c) (a4 m c) (a5 m c) (a6 m c)) (fun j o k => a7 m c (ix3 j o k)) k b o := by
  rw [V4_proj m ρ c]
  refine (Cert.KernelIdeal.Project.final1 (V3 m ρ) c k b o).trans ?_
  show (Cert.Spec.mm (fun b j => hidV m ρ c (ix2 b j)) (fun j o k => tenV m ρ c (ix3 k j o)) k b o : EReal) = _
  unfold Cert.Spec.mm
  refine Finset.sum_congr rfl fun j _ => ?_
  have eh : hidV m ρ c (ix2 b j) = Cert.Net.h3A (a0 m c) (a1 m c) (a2 m c) (a3 m c) (a4 m c) (a5 m c) (a6 m c) b j := by
    show (V3 m ρ c main_v3 : S128x1024.Idx → EReal) (ix2 b j) = _
    rw [V3_hidden m ρ c, hidden_eq m ρ H0 c]
    rfl
  have et : tenV m ρ c (ix3 k j o) = a7 m c (ix3 j o k) := by
    show (V3 m ρ c main_v5 : S20x1024x512.Idx → EReal) (ix3 k j o) = _
    rw [V3_tensor m ρ c, W2_arg7 m ρ c]
    show transpose S20x1024x512 [2, 0, 1] (a7 m c) transposes_S1024x512x20_S20x1024x512_2_0_1 (ix3 k j o) = _
    refine transpose_apply [2, 0, 1] (a7 m c) transposes_S1024x512x20_S20x1024x512_2_0_1 (ix3 k j o) (ix3 j o k) ?_
    intro a
    match a with
    | ⟨0, _⟩ => rfl
    | ⟨1, _⟩ => rfl
    | ⟨2, _⟩ => rfl
  show hidV m ρ c (ix2 b j) * tenV m ρ c (ix3 k j o) = _
  rw [eh, et]

/-- The pairwise call's output array is the minibatch feature of the launch arrays. -/
theorem feature_eq (H0 : (∀ (V : (c : Dev nD) → (b : Ref sig .tc) → Buf (Elt Ideal) ((c : Thread nD τ).loc b)) (c : Dev nD) (p : Fin 128) (h : Fin 1024),
      (dat0 (F := Ideal) V c).arrAt 7 cfg0.N (ix2 p h) =
        Cert.Spec.h3 (fun p k => V c main_arg0 (ix2 p k)) (fun k h => V c main_arg1 (ix2 k h)) (fun h => V c main_v0 (ix2 0 h))
          (fun k h => V c main_arg3 (ix2 k h)) (fun h => V c main_v1 (ix2 0 h))
          (fun k h => V c main_arg5 (ix2 k h)) (fun h => V c main_v2 (ix2 0 h)) p h)) (H2 : (∀ (V : (c : Dev nD) → (b : Ref sig .tc) → Buf (Elt Ideal) ((c : Thread nD τ).loc b)) (c : Dev nD) (b : Fin 128) (o : Fin 512),
      (dat2 (F := Ideal) V c).arrAt 1 cfg2.N (ix2 b o) = Cert.Spec.ob (fun k b o => V c main_v6 (ix3 k b o)) b o)) (c : Dev nD) :
    ((dat2 (F := Ideal) (V4 m ρ) c).arrAt 1 cfg2.N : S128x512.Idx → EReal)
      = Cert.Net.obArr (a0 m c) (a1 m c) (a2 m c) (a3 m c) (a4 m c) (a5 m c) (a6 m c) (a7 m c) := by
  funext i
  obtain ⟨b, o, rfl⟩ : ∃ (b : Fin 128) (o : Fin 512), i = ix2 b o := ⟨i 0, i 1, eq_ix2 i⟩
  refine (H2 (V4 m ρ) c b o).trans ?_
  have e : ((fun k b o => V4 m ρ c main_v6 (ix3 k b o)) : Fin 20 → Fin 128 → Fin 512 → EReal)
      = Cert.Spec.mm (Cert.Net.h3A (a0 m c) (a1 m c) (a2 m c) (a3 m c) (a4 m c) (a5 m c) (a6 m c)) (fun j o k => a7 m c (ix3 j o k)) :=
    funext fun k => funext fun b => funext fun o => proj_eq m ρ H0 c k b o
  rw [e]
  rfl

/-- The result buffer at the last boundary: the host tail of the hidden activations, the minibatch feature, Wc and bc. -/
theorem result (H0 : (∀ (V : (c : Dev nD) → (b : Ref sig .tc) → Buf (Elt Ideal) ((c : Thread nD τ).loc b)) (c : Dev nD) (p : Fin 128) (h : Fin 1024),
      (dat0 (F := Ideal) V c).arrAt 7 cfg0.N (ix2 p h) =
        Cert.Spec.h3 (fun p k => V c main_arg0 (ix2 p k)) (fun k h => V c main_arg1 (ix2 k h)) (fun h => V c main_v0 (ix2 0 h))
          (fun k h => V c main_arg3 (ix2 k h)) (fun h => V c main_v1 (ix2 0 h))
          (fun k h => V c main_arg5 (ix2 k h)) (fun h => V c main_v2 (ix2 0 h)) p h)) (H2 : (∀ (V : (c : Dev nD) → (b : Ref sig .tc) → Buf (Elt Ideal) ((c : Thread nD τ).loc b)) (c : Dev nD) (b : Fin 128) (o : Fin 512),
      (dat2 (F := Ideal) V c).arrAt 1 cfg2.N (ix2 b o) = Cert.Spec.ob (fun k b o => V c main_v6 (ix3 k b o)) b o)) (c : Dev nD) :
    W6 m ρ c (Proc.devRef .tc main_v12)
      = tail (Cert.Net.h3Arr (a0 m c) (a1 m c) (a2 m c) (a3 m c) (a4 m c) (a5 m c) (a6 m c)) (Cert.Net.obArr (a0 m c) (a1 m c) (a2 m c) (a3 m c) (a4 m c) (a5 m c) (a6 m c) (a7 m c)) (a8 m c) (a9 m c) := by
  rw [W6_result m ρ c, W5_hidden m ρ c, W5_feature m ρ c, W5_arg8 m ρ c, W5_arg9 m ρ c, hidden_eq m ρ H0 c, feature_eq m ρ H0 H2 c]

end Cert.KernelIdeal.Result

end
-- ==== Proof.RefValue.lean ====
/-
  The reference program read at an index, stage by stage, against the specification.

  The first 27 operations are three dense layers, each followed by the leaky rectifier: a contraction over the input
  features, the bias broadcast along the rows, and a select between the sum and the slope word times the sum, on the
  sign test against the zero word. Read at (p, h) each layer is  lk (Σₖ input p k · W k h + b h) , which is the
  specification's `lin`; composing the three gives `h3`.

  The remaining operations form the minibatch feature. The weight tensor T [1024, 512, 20] is flattened to
  [1024, 10240] (column o·20 + k), the hidden activations are contracted with it, and the product is folded back to
  m [128, 512, 20]; row-major arithmetic identifies element (b, o, k) with  Σⱼ h3 b j · T j o k . The two broadcasts to
  [128, 128, 512, 20] place m b o k and m a o k at (a, b, o, k); their difference, its absolute value max v (−v), the sum
  over k from the zero word, the negation, the exponential, the sum over a from the zero word and the subtraction of
  the word of 1 give  Σₐ exp (−Σₖ |m b o k − m a o k|) − 1 , the specification's `ob`. Only the zero word is evaluated.
-/
import proofs.«164673_j24532853195159_1_alg».proof.Proof.Gen.ReferenceIdeal.Read
import proofs.«164673_j24532853195159_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- The select, the comparison with the zero word and the product with the slope word, on one extended real, are the
    leaky rectifier. -/
theorem leaky_eq (v : EReal) :
    Scalar.select (FloatOps.cmpf (F := Ideal) (φ := .f32) .oge v (FloatOps.ofBits (F := Ideal) .f32 0x00000000#32)) v
      (FloatOps.mulf (F := Ideal) (φ := .f32) (FloatOps.ofBits (F := Ideal) .f32 0x3C23D70A#32) v) = Cert.Spec.lk v := rfl

/-- The first layer at (p, h): the contraction of row p of the input with column h of the first weight, plus the
    bias at h, through the leaky rectifier. -/
theorem ref_l1 (x0 : S128x512.Idx → EReal) (x1 : S512x512.Idx → EReal) (x2 : S512.Idx → EReal) (p : Fin 128) (h : Fin 512) :
    val_main_v8 (F := Ideal) x0 x1 x2 (ix2 p h) =
      Cert.Spec.lin (fun p k => x0 (ix2 p k)) (fun k h => x1 (ix2 k h)) (fun h => x2 (ix1 h)) p h := by
  rw [val_main_v8_apply, val_main_v5_apply, val_main_v7_apply, val_main_v3_apply, val_main_v4_apply, val_main_v6_apply,
    val_main_v0_apply, val_main_v2_apply, val_main_v1_apply, val_main_cst_apply, val_main_cst_0_apply]
  have el : ∀ k : Fin 512, lidx_main_v0 (ix2 p h) k = ix2 p k := fun k =>
    funext fun a => Fin.ext (by match a with | ⟨0, _⟩ => rfl | ⟨1, _⟩ => rfl)
  have er : ∀ k : Fin 512, ridx_main_v0 (ix2 p h) k = ix2 k h := fun k =>
    funext fun a => Fin.ext (by match a with | ⟨0, _⟩ => rfl | ⟨1, _⟩ => rfl)
  have eb : idx_main_v1 (idx_main_v2 (ix2 p h)) = ix1 h :=
    funext fun a => Fin.ext (by match a with | ⟨0, _⟩ => rfl)
  simp only [el, er, eb]
  exact leaky_eq _

/-- The second layer at (p, h), over the first layer's output. -/
theorem ref_l2 (x0 : S128x512.Idx → EReal) (x1 : S512x512.Idx → EReal) (x2 : S512.Idx → EReal) (x3 : S512x1024.Idx → EReal)
    (x4 : S1024.Idx → EReal) (p : Fin 128) (h : Fin 1024) :
    val_main_v17 (F := Ideal) x0 x1 x2 x3 x4 (ix2 p h) =
      Cert.Spec.lin (fun p k => val_main_v8 (F := Ideal) x0 x1 x2 (ix2 p k)) (fun k h => x3 (ix2 k h))
        (fun h => x4 (ix1 h)) p h := by
  rw [val_main_v17_apply, val_main_v14_apply, val_main_v16_apply, val_main_v12_apply, val_main_v13_apply, val_main_v15_apply,
    val_main_v9_apply, val_main_v11_apply, val_main_v10_apply, val_main_cst_1_apply, val_main_cst_2_apply]
  have el : ∀ k : Fin 512, lidx_main_v9 (ix2 p h) k = ix2 p k := fun k =>
    funext fun a => Fin.ext (by match a with | ⟨0, _⟩ => rfl | ⟨1, _⟩ => rfl)
  have er : ∀ k : Fin 512, ridx_main_v9 (ix2 p h) k = ix2 k h := fun k =>
    funext fun a => Fin.ext (by match a with | ⟨0, _⟩ => rfl | ⟨1, _⟩ => rfl)
  have eb : idx_main_v10 (idx_main_v11 (ix2 p h)) = ix1 h :=
    funext fun a => Fin.ext (by match a with | ⟨0, _⟩ => rfl)
  simp only [el, er, eb]
  exact leaky_eq _

/-- The third layer at (p, h), over the second layer's output. -/
theorem ref_l3 (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (p : Fin 128) (h : Fin 1024) :
    val_main_v26 (F := Ideal) x0 x1 x2 x3 x4 x5 x6 (ix2 p h) =
      Cert.Spec.lin (fun p k => val_main_v17 (F := Ideal) x0 x1 x2 x3 x4 (ix2 p k)) (fun k h => x5 (ix2 k h))
        (fun h => x6 (ix1 h)) p h := by
  rw [val_main_v26_apply, val_main_v23_apply, val_main_v25_apply, val_main_v21_apply, val_main_v22_apply, val_main_v24_apply,
    val_main_v18_apply, val_main_v20_apply, val_main_v19_apply, val_main_cst_3_apply, val_main_cst_4_apply]
  have el : ∀ k : Fin 1024, lidx_main_v18 (ix2 p h) k = ix2 p k := fun k =>
    funext fun a => Fin.ext (by match a with | ⟨0, _⟩ => rfl | ⟨1, _⟩ => rfl)
  have er : ∀ k : Fin 1024, ridx_main_v18 (ix2 p h) k = ix2 k h := fun k =>
    funext fun a => Fin.ext (by match a with | ⟨0, _⟩ => rfl | ⟨1, _⟩ => rfl)
  have eb : idx_main_v19 (idx_main_v20 (ix2 p h)) = ix1 h :=
    funext fun a => Fin.ext (by match a with | ⟨0, _⟩ => rfl)
  simp only [el, er, eb]
  exact leaky_eq _

/-- The hidden activations: the third layer's output at (p, h) is the specification's three composed layers. -/
theorem ref_h3 (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (p : Fin 128) (h : Fin 1024) :
    val_main_v26 (F := Ideal) x0 x1 x2 x3 x4 x5 x6 (ix2 p h) =
      Cert.Spec.h3 (fun p k => x0 (ix2 p k)) (fun k h => x1 (ix2 k h)) (fun h => x2 (ix1 h)) (fun k h => x3 (ix2 k h))
        (fun h => x4 (ix1 h)) (fun k h => x5 (ix2 k h)) (fun h => x6 (ix1 h)) p h := by
  have e1 : (fun (p : Fin 128) (k : Fin 512) => val_main_v8 (F := Ideal) x0 x1 x2 (ix2 p k)) =
      Cert.Spec.lin (fun p k => x0 (ix2 p k)) (fun k h => x1 (ix2 k h)) (fun h => x2 (ix1 h)) :=
    funext fun p => funext fun k => ref_l1 x0 x1 x2 p k
  have e2 : (fun (p : Fin 128) (k : Fin 1024) => val_main_v17 (F := Ideal) x0 x1 x2 x3 x4 (ix2 p k)) =
      Cert.Spec.lin (Cert.Spec.lin (fun p k => x0 (ix2 p k)) (fun k h => x1 (ix2 k h)) (fun h => x2 (ix1 h)))
        (fun k h => x3 (ix2 k h)) (fun h => x4 (ix1 h)) :=
    funext fun p => funext fun k => by rw [ref_l2, e1]
  rw [ref_l3, e2]
  rfl

/-- The projection at (b, o, k): folding the [128, 10240] product back to [128, 512, 20] reads column o·20 + k, and
    that column of the flattened weight tensor is T · o k. -/
theorem ref_m (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (x7 : S1024x512x20.Idx → EReal)
    (b : Fin 128) (o : Fin 512) (k : Fin 20) :
    val_main_v29 (F := Ideal) x0 x1 x2 x3 x4 x5 x6 x7 (ix3 b o k) =
      Cert.Spec.mm (fun p h => val_main_v26 (F := Ideal) x0 x1 x2 x3 x4 x5 x6 (ix2 p h)) (fun j o k => x7 (ix3 j o k)) k b o := by
  have hb := b.isLt
  have ho := o.isLt
  have hk := k.isLt
  have el : ∀ j : Fin 1024, lidx_main_v28 (idx_main_v29 (ix3 b o k)) j = ix2 b j := fun j =>
    funext fun a => Fin.ext (by
      match a with
      | ⟨0, _⟩ => show ((b.val * 512 + o.val) * 20 + k.val) / 10240 = b.val; omega
      | ⟨1, _⟩ => rfl)
  have er : ∀ j : Fin 1024, idx_main_v27 (ridx_main_v28 (idx_main_v29 (ix3 b o k)) j) = ix3 j o k := fun j =>
    funext fun a => Fin.ext (by
      have hj := j.isLt
      match a with
      | ⟨0, _⟩ =>
        show (j.val * 10240 + ((b.val * 512 + o.val) * 20 + k.val) % 10240) / 10240 = j.val; omega
      | ⟨1, _⟩ =>
        show (j.val * 10240 + ((b.val * 512 + o.val) * 20 + k.val) % 10240) / 20 % 512 = o.val; omega
      | ⟨2, _⟩ =>
        show (j.val * 10240 + ((b.val * 512 + o.val) * 20 + k.val) % 10240) % 20 = k.val; omega)
  rw [val_main_v29_apply, val_main_v28_apply]
  simp only [val_main_v27_apply, el, er]
  rfl

/-- The absolute difference at (a, b, o, k): the first broadcast places the projection of sample b, the second that of
    sample a, and the absolute value of an extended real v is max v (−v). -/
theorem ref_absdiff (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (x7 : S1024x512x20.Idx → EReal)
    (a b : Fin 128) (o : Fin 512) (k : Fin 20) :
    val_main_v35 (F := Ideal) x0 x1 x2 x3 x4 x5 x6 x7 (ix4 a b o k) =
      max (val_main_v29 (F := Ideal) x0 x1 x2 x3 x4 x5 x6 x7 (ix3 b o k) - val_main_v29 (F := Ideal) x0 x1 x2 x3 x4 x5 x6 x7 (ix3 a o k))
        (-(val_main_v29 (F := Ideal) x0 x1 x2 x3 x4 x5 x6 x7 (ix3 b o k) - val_main_v29 (F := Ideal) x0 x1 x2 x3 x4 x5 x6 x7 (ix3 a o k))) := by
  have e1 : idx_main_v30 (idx_main_v32 (ix4 a b o k)) = ix3 b o k :=
    funext fun d => Fin.ext (by match d with | ⟨0, _⟩ => rfl | ⟨1, _⟩ => rfl | ⟨2, _⟩ => rfl)
  have e2 : idx_main_v31 (idx_main_v33 (ix4 a b o k)) = ix3 a o k :=
    funext fun d => Fin.ext (by match d with | ⟨0, _⟩ => rfl | ⟨1, _⟩ => rfl | ⟨2, _⟩ => rfl)
  rw [val_main_v35_apply, val_main_v34_apply, val_main_v32_apply, val_main_v33_apply, val_main_v30_apply, val_main_v31_apply,
    e1, e2]
  rfl

/-- The distance at (a, b, o): the sum over the 20 kernels, started from the zero word, of the absolute differences
    between samples b and a. -/
theorem ref_dist (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (x7 : S1024x512x20.Idx → EReal)
    (a b : Fin 128) (o : Fin 512) :
    val_main_v36 (F := Ideal) x0 x1 x2 x3 x4 x5 x6 x7 (ix3 a b o) =
      Cert.Spec.dist (Cert.Spec.mm (fun p h => val_main_v26 (F := Ideal) x0 x1 x2 x3 x4 x5 x6 (ix2 p h)) (fun j o k => x7 (ix3 j o k))) b a o := by
  have e : ∀ k : Fin 20, idx_main_v36 (ix3 a b o) k = ix4 a b o k := fun k =>
    funext fun d => Fin.ext (by match d with | ⟨0, _⟩ => rfl | ⟨1, _⟩ => rfl | ⟨2, _⟩ => rfl | ⟨3, _⟩ => rfl)
  rw [val_main_v36_apply, val_main_cst_5_apply, Ideal.ofBits_def, Ideal.ofBits_zero_f32, zero_add]
  simp only [e, ref_absdiff, ref_m]
  rfl

/-- The minibatch feature at (b, o): the sum over the samples a, started from the zero word, of the exponential of
    the negated distance, minus the word of 1. -/
theorem ref_ob (x0 : S128x512.Idx → EReal) (x1 : S512x512.Idx → EReal) (x2 : S512.Idx → EReal) (x3 : S512x1024.Idx → EReal)
    (x4 : S1024.Idx → EReal) (x5 : S1024x1024.Idx → EReal) (x6 : S1024.Idx → EReal) (x7 : S1024x512x20.Idx → EReal) (b : Fin 128) (o : Fin 512) :
    val_main_v41 (F := Ideal) x0 x1 x2 x3 x4 x5 x6 x7 (ix2 b o) =
      Cert.Spec.ob (Cert.Spec.mm (fun p h => val_main_v26 (F := Ideal) x0 x1 x2 x3 x4 x5 x6 (ix2 p h)) (fun j o k => x7 (ix3 j o k))) b o := by
  have e : ∀ a : Fin 128, idx_main_v39 (ix2 b o) a = ix3 a b o := fun a =>
    funext fun d => Fin.ext (by match d with | ⟨0, _⟩ => rfl | ⟨1, _⟩ => rfl | ⟨2, _⟩ => rfl)
  rw [val_main_v41_apply, val_main_v39_apply, val_main_v40_apply, val_main_cst_6_apply, val_main_cst_7_apply,
    Ideal.ofBits_def, Ideal.ofBits_zero_f32, zero_add]
  simp only [e, val_main_v38_apply, val_main_v37_apply, ref_dist]
  rfl

end Cert.ReferenceIdeal.RefValue

end
-- ==== Proof.RefResult.lean ====
/-
  The reference's result as the same host tail of the same two functions of the argument arrays: its last five
  operations are the kernel program's (concatenate, the product with Wc, the bias broadcast twice, the sum), applied to
  its third layer's output and to its minibatch feature, which are the specification's hidden activations and feature.
-/
import proofs.«164673_j24532853195159_1_alg».proof.Proof.RefValue
import proofs.«164673_j24532853195159_1_alg».proof.Proof.Chain
import proofs.«164673_j24532853195159_1_alg».proof.Proof.Net

noncomputable section

namespace Cert.ReferenceIdeal.RefResult

open Cert.ReferenceIdeal Cert.ReferenceIdeal.Read Idealize.ShloMosaic Idealize.ShloMosaic.ValueIdx

/-- The third layer's output array is the hidden activations. -/
theorem hidden_eq (x0 : S128x512.Idx → EReal) (x1 : S512x512.Idx → EReal) (x2 : S512.Idx → EReal) (x3 : S512x1024.Idx → EReal) (x4 : S1024.Idx → EReal) (x5 : S1024x1024.Idx → EReal) (x6 : S1024.Idx → EReal) :
    val_main_v26 (F := Ideal) x0 x1 x2 x3 x4 x5 x6 = Cert.Net.h3Arr x0 x1 x2 x3 x4 x5 x6 := by
  funext i
  obtain ⟨p, h, rfl⟩ : ∃ (p : Fin 128) (h : Fin 1024), i = ix2 p h := ⟨i 0, i 1, eq_ix2 i⟩
  exact Cert.ReferenceIdeal.RefValue.ref_h3 x0 x1 x2 x3 x4 x5 x6 p h

/-- The feature array is the minibatch feature. -/
theorem feature_eq (x0 : S128x512.Idx → EReal) (x1 : S512x512.Idx → EReal) (x2 : S512.Idx → EReal) (x3 : S512x1024.Idx → EReal) (x4 : S1024.Idx → EReal) (x5 : S1024x1024.Idx → EReal) (x6 : S1024.Idx → EReal) (x7 : S1024x512x20.Idx → EReal) :
    val_main_v41 (F := Ideal) x0 x1 x2 x3 x4 x5 x6 x7 = Cert.Net.obArr x0 x1 x2 x3 x4 x5 x6 x7 := by
  funext i
  obtain ⟨b, o, rfl⟩ : ∃ (b : Fin 128) (o : Fin 512), i = ix2 b o := ⟨i 0, i 1, eq_ix2 i⟩
  refine (Cert.ReferenceIdeal.RefValue.ref_ob x0 x1 x2 x3 x4 x5 x6 x7 b o).trans ?_
  have e : (fun (p : Fin 128) (h : Fin 1024) => val_main_v26 (F := Ideal) x0 x1 x2 x3 x4 x5 x6 (ix2 p h)) = Cert.Net.h3A x0 x1 x2 x3 x4 x5 x6 :=
    funext fun p => funext fun h => Cert.ReferenceIdeal.RefValue.ref_h3 x0 x1 x2 x3 x4 x5 x6 p h
  rw [e]
  rfl

/-- The reference's result: the tail of the two. -/
theorem result (x0 : S128x512.Idx → EReal) (x1 : S512x512.Idx → EReal) (x2 : S512.Idx → EReal) (x3 : S512x1024.Idx → EReal) (x4 : S1024.Idx → EReal) (x5 : S1024x1024.Idx → EReal) (x6 : S1024.Idx → EReal) (x7 : S1024x512x20.Idx → EReal) (x8 : S1536x1.Idx → EReal) (x9 : S1.Idx → EReal) :
    val_main_v46 (F := Ideal) x0 x1 x2 x3 x4 x5 x6 x7 x8 x9
      = Cert.KernelIdeal.Chain.tail (F := Ideal) (Cert.Net.h3Arr x0 x1 x2 x3 x4 x5 x6) (Cert.Net.obArr x0 x1 x2 x3 x4 x5 x6 x7) x8 x9 := by
  unfold val_main_v46 val_main_v43 val_main_v42 val_main_v45 val_main_v44
  rw [hidden_eq, feature_eq]
  rfl

end Cert.ReferenceIdeal.RefResult

end
-- ==== Proof.lean ====
/-
  A three-layer leaky-rectifier network with minibatch discrimination, as three pallas_calls and host glue, against its
  jnp reference, over the extended reals.

  Both programs compute, from x [128,512], W1, b1, W2, b2, W3, b3, T [1024,512,20], Wc [1536,1], bc [1]:
    h3 = lk (lk (lk (x·W1 + b1)·W2 + b2)·W3 + b3)                        (lk v = v where v ≥ 0, else slope · v),
    m k b o = Σⱼ h3 b j · T j o k,
    feature b o = Σₐ exp (−Σₖ |m k b o − m k a o|) − 1,
    result = concatenate (h3, feature) · Wc + bc.
  The kernel program computes h3 in one call (three matrix-unit products into zero accumulators, the biases as rows),
  m in a call of 20 grid points (one kernel k per point, on the host-transposed T), and the feature in a call of 4 grid
  points over column chunks, summing the 20 absolute differences one after the other from zero and writing −v as 0 − v;
  the reference flattens T, contracts once, folds back, and reduces with the host's sums. At the ideal values a change
  of float format is the identity and every sum is the extended reals' commutative, associative sum, so the two agree
  index by index with no finiteness needed; the last five host operations are the same in both programs and are carried
  as one function. The idealization rewrote nothing, so the preservation claim is trivial; the three frames are the
  generated frame runs and the reference's generated run.
-/
import proofs.«164673_j24532853195159_1_alg».proof.Defs
import proofs.«164673_j24532853195159_1_alg».proof.Proof.Gen.Kernel
import proofs.«164673_j24532853195159_1_alg».proof.Proof.Gen.Kernel.Skeleton
import proofs.«164673_j24532853195159_1_alg».proof.Proof.Gen.Kernel.Launch
import proofs.«164673_j24532853195159_1_alg».proof.Proof.Gen.Kernel.Points
import proofs.«164673_j24532853195159_1_alg».proof.Proof.Gen.Kernel.Frame
import proofs.«164673_j24532853195159_1_alg».proof.Proof.Gen.KernelIdeal
import proofs.«164673_j24532853195159_1_alg».proof.Proof.Gen.KernelIdeal.Skeleton
import proofs.«164673_j24532853195159_1_alg».proof.Proof.Gen.KernelIdeal.Launch
import proofs.«164673_j24532853195159_1_alg».proof.Proof.Gen.KernelIdeal.Points
import proofs.«164673_j24532853195159_1_alg».proof.Proof.Gen.KernelIdeal.Frame
import proofs.«164673_j24532853195159_1_alg».proof.Proof.Gen.ReferenceIdeal
import proofs.«164673_j24532853195159_1_alg».proof.Proof.Gen.Pre_finite_inputs
import proofs.«164673_j24532853195159_1_alg».proof.Proof.Gen.ReferenceIdeal.Run
import proofs.«164673_j24532853195159_1_alg».proof.Proof.Gen.ReferenceIdeal.Read
import proofs.«164673_j24532853195159_1_alg».proof.Proof.RunValue
import proofs.«164673_j24532853195159_1_alg».proof.Proof.Mlp
import proofs.«164673_j24532853195159_1_alg».proof.Proof.Pairwise
import proofs.«164673_j24532853195159_1_alg».proof.Proof.Result
import proofs.«164673_j24532853195159_1_alg».proof.Proof.RefResult
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel :=
  fun m ρ _ => Cert.Kernel.Gen.frame m ρ

/-- So does the idealized kernel program. -/
theorem frame_kernelIdeal : Cert.frame_KernelIdeal :=
  fun m ρ _ => Cert.KernelIdeal.Gen.frame m ρ

/-- The reference's frame is its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- Both idealized programs end at the host tail of the specification's hidden activations and minibatch feature of
    the argument arrays, which agree. -/
theorem algebraic : Cert.algebraic_KernelIdeal_ReferenceIdeal := by
  intro m ρ m' ρ' _ hagree
  refine ⟨fun c => Cert.KernelIdeal.Chain.tail (F := Ideal)
      (Cert.Net.h3Arr (Cert.KernelIdeal.Result.a0 m c) (Cert.KernelIdeal.Result.a1 m c) (Cert.KernelIdeal.Result.a2 m c) (Cert.KernelIdeal.Result.a3 m c) (Cert.KernelIdeal.Result.a4 m c) (Cert.KernelIdeal.Result.a5 m c) (Cert.KernelIdeal.Result.a6 m c))
      (Cert.Net.obArr (Cert.KernelIdeal.Result.a0 m c) (Cert.KernelIdeal.Result.a1 m c) (Cert.KernelIdeal.Result.a2 m c) (Cert.KernelIdeal.Result.a3 m c) (Cert.KernelIdeal.Result.a4 m c) (Cert.KernelIdeal.Result.a5 m c) (Cert.KernelIdeal.Result.a6 m c) (Cert.KernelIdeal.Result.a7 m c))
      (Cert.KernelIdeal.Result.a8 m c) (Cert.KernelIdeal.Result.a9 m c), ?_, ?_⟩
  · exact (θ_run Cert.KernelIdeal.defs _ _).mono
      (fun r h c => ⟨(h c).1.trans (Cert.KernelIdeal.Result.result m ρ
          (fun V c p h => Cert.KernelIdeal.Mlp.final0 V c p h) (fun V c b o => Cert.KernelIdeal.Pairwise.final2 V c b o) c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9⟩ := hagree c
    rw [Cert.ReferenceIdeal.Read.val_main_v46_eq, Cert.ReferenceIdeal.RefResult.result, g0, g1, g2, g3, g4, g5, g6, g7, g8, g9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
